-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x16 : Shape := ⟨2, ![800000, 16]⟩
abbrev S800000 : Shape := ⟨1, ![800000]⟩
abbrev S16x256 : Shape := ⟨2, ![16, 256]⟩
abbrev S256 : Shape := ⟨1, ![256]⟩
abbrev S256x128 : Shape := ⟨2, ![256, 128]⟩
abbrev S128 : Shape := ⟨1, ![128]⟩
abbrev S1 : Shape := ⟨1, ![1]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S800000 : S_.BroadcastsInDim S800000 (![] : Fin 0 → Fin S800000.rank)
  reducesTo_S800000_S_d0 : S800000.ReducesTo [0] S_

variable [Facts]

def fn_part5 {F : FTy → Type} [FloatOps F] (main_arg2 : IVec S800000 32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_c_36 : IVec S_ 32 := constantI S_ 32 4294917296#32
  let main_v94 : IVec S800000 32 := broadcastInDim S800000 ![] bcast_S_S800000 main_c_36
  let main_v95 : IVec S800000 1 := cmpi .sge main_arg2 main_v94
  let main_c_37 : IVec S_ 32 := constantI S_ 32 50000#32
  let main_v96 : IVec S800000 32 := broadcastInDim S800000 ![] bcast_S_S800000 main_c_37
  let main_v97 : IVec S800000 1 := cmpi .slt main_arg2 main_v96
  let main_v98 : IVec S800000 1 := andi main_v95 main_v97
  let main_c_38 : IVec S_ 1 := constantI S_ 1 1#1
  let main_v99 : IVec S_ 1 := (fun x v => Host.reduce IntOp.andi x v reducesTo_S800000_S_d0 h_S_) main_v98 main_c_38
  let main_v100 : IVec S_ 1 := andi main_v93 main_v99
  main_v100

def fn_part4 {F : FTy → Type} [FloatOps F] (main_arg2 : IVec S800000 32) (main_arg16 : FVec F S128 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg20 main_v83 main_v84 main_cst_32

def fn_part3 {F : FTy → Type} [FloatOps F] (main_arg2 : IVec S800000 32) (main_arg13 : FVec F S256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg2 main_arg16 main_arg17 main_arg18 main_arg19 main_arg20 main_v63 main_v67

def fn_part2 {F : FTy → Type} [FloatOps F] (main_arg2 : IVec S800000 32) (main_arg9 : FVec F S128x256 .f32) (main_arg10 : FVec F S256 .f32) (main_arg11 : FVec F S256 .f32) (main_arg12 : FVec F S256 .f32) (main_arg13 : FVec F S256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg2 main_arg13 main_arg14 main_arg15 main_arg16 main_arg17 main_arg18 main_arg19 main_arg20 main_v48 main_v49 main_v50

def fn_part1 {F : FTy → Type} [FloatOps F] (main_arg2 : IVec S800000 32) (main_arg6 : FVec F S256x128 .f32) (main_arg7 : FVec F S128 .f32) (main_arg8 : FVec F S1 .f32) (main_arg9 : FVec F S128x256 .f32) (main_arg10 : FVec F S256 .f32) (main_arg11 : FVec F S256 .f32) (main_arg12 : FVec F S256 .f32) (main_arg13 : FVec F S256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : FVec F S800000x16 .f32) (main_arg2 : IVec S800000 32) (main_arg3 : IVec S800000 32) (main_arg4 : FVec F S16x256 .f32) (main_arg5 : FVec F S256 .f32) (main_arg6 : FVec F S256x128 .f32) (main_arg7 : FVec F S128 .f32) (main_arg8 : FVec F S1 .f32) (main_arg9 : FVec F S128x256 .f32) (main_arg10 : FVec F S256 .f32) (main_arg11 : FVec F S256 .f32) (main_arg12 : FVec F S256 .f32) (main_arg13 : FVec F S256 .f32) (main_arg14 : FVec F S256 .f32) (main_arg15 : FVec F S256x128 .f32) (main_arg16 : FVec F S128 .f32) (main_arg17 : FVec F S128 .f32) (main_arg18 : FVec F S128 .f32) (main_arg19 : FVec F S128 .f32) (main_arg20 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x256 .f32 := Host.absf main_arg4
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S800000x16 : Shape := ⟨2, ![800000, 16]⟩
abbrev S800000 : Shape := ⟨1, ![800000]⟩
abbrev S16x256 : Shape := ⟨2, ![16, 256]⟩
abbrev S256 : Shape := ⟨1, ![256]⟩
abbrev S256x128 : Shape := ⟨2, ![256, 128]⟩
abbrev S128 : Shape := ⟨1, ![128]⟩
abbrev S1 : Shape := ⟨1, ![1]⟩
abbrev S128x256 : Shape := ⟨2, ![128, 256]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S5000x16 : Shape := ⟨2, ![5000, 16]⟩
abbrev S5000x128 : Shape := ⟨2, ![5000, 128]⟩
abbrev S5000x256 : Shape := ⟨2, ![5000, 256]⟩
abbrev S1x256 : Shape := ⟨2, ![1, 256]⟩
abbrev S1x128 : Shape := ⟨2, ![1, 128]⟩
abbrev S2000x128 : Shape := ⟨2, ![2000, 128]⟩
abbrev S2000x256 : Shape := ⟨2, ![2000, 256]⟩

abbrev nBuf : Space → Nat
  | .hbm => 50
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S800000, .i32⟩
  | .hbm, ⟨3, _⟩ => ⟨S800000, .i32⟩
  | .hbm, ⟨4, _⟩ => ⟨S16x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1, .f32⟩
  | .hbm, ⟨9, _⟩ => ⟨S128x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S1, .i32⟩
  | .hbm, ⟨30, _⟩ => ⟨S_, .i32⟩
  | .hbm, ⟨31, _⟩ => ⟨S800000x1, .i32⟩
  | .hbm, ⟨32, _⟩ => ⟨S800000x1, .i1⟩
  | .hbm, ⟨33, _⟩ => ⟨S1x1, .i32⟩
  | .hbm, ⟨34, _⟩ => ⟨S800000x1, .i32⟩
  | .hbm, ⟨35, _⟩ => ⟨S800000x1, .i1⟩
  | .hbm, ⟨36, _⟩ => ⟨S800000x1, .i1⟩
  | .hbm, ⟨37, _⟩ => ⟨S_, .i1⟩
  | .hbm, ⟨38, _⟩ => ⟨S800000, .i1⟩
  | .hbm, ⟨39, _⟩ => ⟨S800000x128, .f32⟩
  | .hbm, ⟨40, _⟩ => ⟨S800000x128, .i1⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .local _ .vmem, ⟨0, _⟩ => ⟨S5000x16, .f32⟩
  | .local _ .vmem, ⟨1, _⟩ => ⟨S5000x16, .f32⟩
  | .local _ .vmem, ⟨2, _⟩ => ⟨S5000x128, .f32⟩
  | .local _ .vmem, ⟨3, _⟩ => ⟨S5000x128, .f32⟩
  | .local _ .vmem, ⟨4, _⟩ => ⟨S16x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1, .f32⟩
  | .local _ .vmem, ⟨15, _⟩ => ⟨S128x256, .f32⟩
  | .local _ .vmem, ⟨16, _⟩ => ⟨S256, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S256, .f32⟩
  | .local _ .vmem, ⟨21, _⟩ => ⟨S256x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S2000x128, .f32⟩
  | .local _ .vmem, ⟨28, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_v1 : Ref sig .tc := ⟨.hbm, 44, rfl⟩
abbrev main_cst : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem15_1 : DmaSem sig := 28

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S_S50000x128 : S_.BroadcastsInDim S50000x128 (![] : Fin 0 → Fin S50000x128.rank)
  inb_S1_S1_0 : ∀ a, (![0] : Fin 1 → Nat) a + S1.size a ≤ S1.size a
  h_S1 : 0 < S1.numel
  inb_S2000x128_S2000x128_0_0 : ∀ a, (![0, 0] : Fin 2 → Nat) a + S2000x128.size a ≤ S2000x128.size a
  h_S2000x128 : 0 < S2000x128.numel
  shapeCasts_S1_S1x1 : S1.ShapeCasts S1x1
  broadcasts_S1x1_S2000x128 : S1x1.Broadcasts S2000x128
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  broadcasts_S1x256_S2000x256 : S1x256.Broadcasts S2000x256
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  dot_S5000x16_S16x256_S5000x256_1_0_0_1_n_n_wf : DotDims.WF S5000x16 S16x256 S5000x256 [1] [0] [0] [1] [] []
  dot_S5000x256_S256x128_S5000x128_1_0_0_1_n_n_wf : DotDims.WF S5000x256 S256x128 S5000x128 [1] [0] [0] [1] [] []
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S800000x16.size a
  hwx0_0 : ∀ i : grid0.Coords, EltTy.bits .f32 = 32 ∨ (Rect.block (s := S800000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S800000x128.size a
  hwx0_1 : ∀ i : grid0.Coords, EltTy.bits .f32 = 32 ∨ (Rect.block (s := S800000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S800000x128.size a
  hwx0_6 : ∀ i : grid0.Coords, EltTy.bits .f32 = 32 ∨ (Rect.block (s := S800000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S256x128.size a
  hwx1_9 : ∀ i : grid1.Coords, EltTy.bits .f32 = 32 ∨ (Rect.block (s := S256x128) S256x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128.size a ≤ S128.size a
  hwx1_14 : ∀ i : grid1.Coords, EltTy.bits .f32 = 32 ∨ (Rect.block (s := S128) S128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x128.size a ≤ S50000x128.size a
  hwx1_15 : ∀ i : grid1.Coords, EltTy.bits .f32 = 32 ∨ (Rect.block (s := S50000x128) S2000x128.size (cc1_transform_15 i) (hinb1_15 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S5000x16_S16x256_S5000x256_1_0_0_1_n_n : DotDims S5000x16 S16x256 S5000x256 where
  lhsContracting := [1]
  rhsContracting := [0]
  lhsNonContracting := [0]
  rhsNonContracting := [1]
  lhsBatch := []
  rhsBatch := []
  wf := dot_S5000x16_S16x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg1) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S256x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg17) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg18) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg19) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg20) S128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v5) S2000x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x16 : Shape := ⟨2, ![800000, 16]⟩
abbrev S800000 : Shape := ⟨1, ![800000]⟩
abbrev S16x256 : Shape := ⟨2, ![16, 256]⟩
abbrev S256 : Shape := ⟨1, ![256]⟩
abbrev S256x128 : Shape := ⟨2, ![256, 128]⟩
abbrev S128 : Shape := ⟨1, ![128]⟩
abbrev S1 : Shape := ⟨1, ![1]⟩
abbrev S128x256 : Shape := ⟨2, ![128, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩
abbrev S1x1 : Shape := ⟨2, ![1, 1]⟩
abbrev S50000x256 : Shape := ⟨2, ![50000, 256]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S800000, .i32⟩
  | .hbm, ⟨3, _⟩ => ⟨S800000, .i32⟩
  | .hbm, ⟨4, _⟩ => ⟨S16x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1, .f32⟩
  | .hbm, ⟨9, _⟩ => ⟨S128x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S800000x256, .f32⟩
  | .hbm, ⟨22, _⟩ => ⟨S1x256, .f32⟩
  | .hbm, ⟨23, _⟩ => ⟨S800000x256, .f32⟩
  | .hbm, ⟨24, _⟩ => ⟨S800000x256, .f32⟩
  | .hbm, ⟨25, _⟩ => ⟨S800000x128, .f32⟩
  | .hbm, ⟨26, _⟩ => ⟨S1x128, .f32⟩
  | .hbm, ⟨27, _⟩ => ⟨S800000x128, .f32⟩
  | .hbm, ⟨28, _⟩ => ⟨S800000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S1x1, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x256, .f32⟩
  | .hbm, ⟨54, _⟩ => ⟨S1x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_call0_cst : Ref sig .tc := ⟨.hbm, 39, rfl⟩
abbrev main_call0_v0 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call1_cst : Ref sig .tc := ⟨.hbm, 73, rfl⟩
abbrev main_call1_v0 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_3 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S1 : S_.BroadcastsInDim S1 (![] : Fin 0 → Fin S1.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  bcast_S_S128 : S_.BroadcastsInDim S128 (![] : Fin 0 → Fin S128.rank)
  dot_S800000x16_S16x256_S800000x256_1_0_0_1_n_n_wf : DotDims.WF S800000x16 S16x256 S800000x256 [1] [0] [0] [1] [] []
  dot_S800000x256_S256x128_S800000x128_1_0_0_1_n_n_wf : DotDims.WF S800000x256 S256x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S800000x16_S16x256_S800000x256_1_0_0_1_n_n : DotDims S800000x16 S16x256 S800000x256 where
  lhsContracting := [1]
  rhsContracting := [0]
  lhsNonContracting := [0]
  rhsNonContracting := [1]
  lhsBatch := []
  rhsBatch := []
  wf := dot_S800000x16_S16x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.Spec.lean ====
/-
  The two stages of one round of message passing on a graph, as functions on the extended reals, index by index.

  An edge's message is the rectified sum of its encoded features and its sender's row:
    msg e d = max (((ef e · We1 + be1) · We2 + be2) d + gath e d) 0 .
  A node's update mixes its own row, scaled by  s = 1 + eps , with the pooled messages,
    h n = s * x n + p n ,
  and passes the mix through a product and a bias, an evaluation-mode normalisation
    (a - m) * rsqrt (v + 1e-3) * g + b ,
  a rectifier, a second product and bias, and a second normalisation.

  Everything is written over plain coordinates with the number of rows a parameter, so that a block of rows and the
  whole array are the same function of their rows; each stage reads only the row it is asked for.
-/
import Idealize.ShloMosaic.PureOps.Ideal
import Idealize.ShloMosaic.PureOps.Ideal.Laws
import Idealize.ShloMosaic.Lib.ValueIdx
import Idealize.ShloMosaic.Lib.Pipeline.Value
import proofs.«428133_j36799279792140_1_alg».proof.Proof.LibMlp

noncomputable section

open Idealize.ShloMosaic Idealize.ShloMosaic.ValueIdx

namespace Cert.Gin

/-- A matrix of extended reals with `N` rows and `K` columns. -/
abbrev Mat (N K : ℕ) := (⟨2, ![N, K]⟩ : Shape).Idx → EReal

/-- The variance offset of the normalisation: the single-precision word nearest 1e-3. -/
def eps : EReal := Ideal.ofBits .f32 0x3A83126F#32
/-- The word of 1.0. -/
def one : EReal := Ideal.ofBits .f32 0x3F800000#32

/-- A product and a bias: row `i 0` of `a` against column `i 1` of `W`, plus `b (i 1)`. -/
def dense {N K H : ℕ} (a : Mat N K) (W : Mat K H) (b : Fin H → EReal) : Mat N H := fun i =>
  (∑ k : Fin K, a (ix2 (i 0) k) * W (ix2 k (i 1))) + b (i 1)

/-- Evaluation-mode normalisation, column by column. -/
def norm {N H : ℕ} (a : Mat N H) (g be m v : Fin H → EReal) : Mat N H := fun i =>
  (a i - m (i 1)) * Ideal.rsqrt (v (i 1) + eps) * g (i 1) + be (i 1)

/-- An edge's message. -/
def msg {E : ℕ} (ef : Mat E 16) (gath : Mat E 128) (We1 : Mat 16 256) (be1 : Fin 256 → EReal) (We2 : Mat 256 128)
    (be2 : Fin 128 → EReal) : Mat E 128 := fun i =>
  max (dense (dense ef We1 be1) We2 be2 i + gath i) Cert.Mlp.zero

/-- A node's own row, scaled, plus what was pooled into it. -/
def mix {N : ℕ} (s : EReal) (x p : Mat N 128) : Mat N 128 := fun i => s * x i + p i

/-- A node's update. -/
def node {N : ℕ} (x p : Mat N 128) (s : EReal) (Wm1 : Mat 128 256) (bm1 g1 b1 m1 v1 : Fin 256 → EReal)
    (Wm2 : Mat 256 128) (bm2 g2 b2 m2 v2 : Fin 128 → EReal) : Mat N 128 :=
  norm (dense (Cert.Mlp.relu (norm (dense (mix s x p) Wm1 bm1) g1 b1 m1 v1)) Wm2 bm2) g2 b2 m2 v2

/-! ## Each stage reads only the row it is asked for -/

theorem dense_row {N N' K H : ℕ} (a : Mat N K) (a' : Mat N' K) (W : Mat K H) (b : Fin H → EReal)
    (r : Fin N) (r' : Fin N') (j : Fin H) (h : ∀ k : Fin K, a (ix2 r k) = a' (ix2 r' k)) :
    dense a W b (ix2 r j) = dense a' W b (ix2 r' j) := by
  unfold dense
  have : (∑ k : Fin K, a (ix2 r k) * W (ix2 k j)) = ∑ k : Fin K, a' (ix2 r' k) * W (ix2 k j) :=
    Finset.sum_congr rfl fun k _ => by rw [h k]
  exact congrArg (fun s => s + b j) this

theorem norm_row {N N' H : ℕ} (a : Mat N H) (a' : Mat N' H) (g be m v : Fin H → EReal)
    (r : Fin N) (r' : Fin N') (j : Fin H) (h : a (ix2 r j) = a' (ix2 r' j)) :
    norm a g be m v (ix2 r j) = norm a' g be m v (ix2 r' j) := by
  unfold norm
  exact congrArg (fun s => (s - m j) * Ideal.rsqrt (v j + eps) * g j + be j) h

theorem msg_row {E E' : ℕ} (ef : Mat E 16) (ef' : Mat E' 16) (gath : Mat E 128) (gath' : Mat E' 128)
    (We1 : Mat 16 256) (be1 : Fin 256 → EReal) (We2 : Mat 256 128) (be2 : Fin 128 → EReal)
    (r : Fin E) (r' : Fin E') (j : Fin 128)
    (hef : ∀ k : Fin 16, ef (ix2 r k) = ef' (ix2 r' k)) (hg : gath (ix2 r j) = gath' (ix2 r' j)) :
    msg ef gath We1 be1 We2 be2 (ix2 r j) = msg ef' gath' We1 be1 We2 be2 (ix2 r' j) := by
  unfold msg
  rw [hg, dense_row (dense ef We1 be1) (dense ef' We1 be1) We2 be2 r r' j
    (fun k => dense_row ef ef' We1 be1 r r' k hef)]

theorem node_row {N N' : ℕ} (x p : Mat N 128) (x' p' : Mat N' 128) (s : EReal) (Wm1 : Mat 128 256)
    (bm1 g1 b1 m1 v1 : Fin 256 → EReal) (Wm2 : Mat 256 128) (bm2 g2 b2 m2 v2 : Fin 128 → EReal)
    (r : Fin N) (r' : Fin N') (j : Fin 128)
    (hx : ∀ k : Fin 128, x (ix2 r k) = x' (ix2 r' k)) (hp : ∀ k : Fin 128, p (ix2 r k) = p' (ix2 r' k)) :
    node x p s Wm1 bm1 g1 b1 m1 v1 Wm2 bm2 g2 b2 m2 v2 (ix2 r j)
      = node x' p' s Wm1 bm1 g1 b1 m1 v1 Wm2 bm2 g2 b2 m2 v2 (ix2 r' j) := by
  unfold node
  refine norm_row _ _ g2 b2 m2 v2 r r' j (dense_row _ _ Wm2 bm2 r r' j fun k => ?_)
  show max (norm (dense (mix s x p) Wm1 bm1) g1 b1 m1 v1 (ix2 r k)) Cert.Mlp.zero
     = max (norm (dense (mix s x' p') Wm1 bm1) g1 b1 m1 v1 (ix2 r' k)) Cert.Mlp.zero
  rw [norm_row _ _ g1 b1 m1 v1 r r' k (dense_row (mix s x p) (mix s x' p') Wm1 bm1 r r' k fun q => by
    show s * x (ix2 r q) + p (ix2 r q) = s * x' (ix2 r' q) + p' (ix2 r' q)
    rw [hx q, hp q])]

end Cert.Gin

end
-- ==== Proof.Payload.lean ====
/-
  The two kernel bodies, read at the extended reals, are the two stages of Spec.lean on the blocks they load.

  Both sides are the same formula, operation by operation; no algebraic law and no finiteness is used. The edge body is
  two products with a bias each, the sender's rows added, and a maximum with zero. The node body scales the node's rows
  by one plus a one-entry vector's entry, adds the pooled rows, and passes the result through a product with a bias, a
  normalisation  (a - m) * rsqrt (v + 1e-3) * g + b , a maximum with zero, a second product with a bias and a second
  normalisation. Each group of operations is first read at any sizes, then the bodies are rewritten group by group from
  the inside out.
-/
import proofs.«428133_j36799279792140_1_alg».proof.Proof.Spec
import proofs.«428133_j36799279792140_1_alg».proof.Proof.Gen.KernelIdeal.Skeleton

noncomputable section

open Idealize.ShloMosaic Idealize.ShloMosaic.ValueIdx

namespace Cert.Gin

open Cert.KernelIdeal Cert.KernelIdeal.Gen Cert.Mlp

/-! ## The vector dialect's spelling of each stage, at any sizes

Each lemma reads one group of the body's operations at an index (p, q): a product of two operands into a zero
accumulator is the sum over the middle coordinate of row entry times column entry; a vector reshaped to one row and
broadcast down the rows contributes its entry q; a change of float format changes no extended real. -/

/-- A vector reshaped to one row and broadcast down the rows, read at (p, q), is its entry q. -/
theorem bcast_vec {N H : ℕ} (hc : (⟨1, ![H]⟩ : Shape).ShapeCasts ⟨2, ![1, H]⟩)
    (hb : (⟨2, ![1, H]⟩ : Shape).Broadcasts ⟨2, ![N, H]⟩) (y : (⟨1, ![H]⟩ : Shape).Idx → EReal) (p : Fin N) (q : Fin H) :
    broadcastTo (⟨2, ![N, H]⟩ : Shape) (shapeCast (⟨2, ![1, H]⟩ : Shape) y hc) hb (ix2 p q) = y (ix1 q) :=
  (bcast_row hb (shapeCast (⟨2, ![1, H]⟩ : Shape) y hc) p q).trans (congrFun (row_shapeCast y hc) q)

/-- A product of two narrowed operands into a zero accumulator, plus a vector reshaped to one row and broadcast down
    the rows, is a product and a bias: narrowing changes no extended real. -/
theorem vec_dense {N K H : ℕ} (d : DotDims ⟨2, ![N, K]⟩ ⟨2, ![K, H]⟩ ⟨2, ![N, H]⟩) (hd : d = DotDims.plain N K H)
    (hc : (⟨1, ![H]⟩ : Shape).ShapeCasts ⟨2, ![1, H]⟩) (hb : (⟨2, ![1, H]⟩ : Shape).Broadcasts ⟨2, ![N, H]⟩)
    (ht : FTy.bits .bf16 < FTy.bits .f32)
    (a : FVec Ideal ⟨2, ![N, K]⟩ .f32) (W : FVec Ideal ⟨2, ![K, H]⟩ .f32) (b : FVec Ideal ⟨1, ![H]⟩ .f32) :
    addf (matmul d none (truncf .bf16 a ht) (truncf .bf16 W ht) (constant ⟨2, ![N, H]⟩ .f32 0x00000000#32))
        (broadcastTo ⟨2, ![N, H]⟩ (shapeCast ⟨2, ![1, H]⟩ b hc) hb)
      = dense a W (vec b) := by
  subst hd
  funext i
  obtain ⟨p, q, rfl⟩ : ∃ (p : Fin N) (q : Fin H), i = ix2 p q := ⟨i 0, i 1, eq_ix2 i⟩
  simp only [addf_apply]
  have hm : matmul (DotDims.plain N K H) none (truncf .bf16 a ht) (truncf .bf16 W ht)
        (constant ⟨2, ![N, H]⟩ .f32 0x00000000#32) (ix2 p q)
      = ∑ k : Fin K, a (ix2 p k) * W (ix2 k q) := by
    rw [show matmul (DotDims.plain N K H) none (truncf .bf16 a ht) (truncf .bf16 W ht)
        (constant ⟨2, ![N, H]⟩ .f32 0x00000000#32) (ix2 p q) = _ from
      Ideal.matmul_constant_zero_apply (DotDims.plain N K H) none (truncf .bf16 a ht) (truncf .bf16 W ht) (ix2 p q)]
    exact plain_sum (truncf .bf16 a ht) (truncf .bf16 W ht) (ix2 p q)
  rw [bcast_vec hc hb b p q, hm]
  rfl

/-- The normalisation over vectors, each reshaped to one row and broadcast down the rows, the reciprocal root taken on
    the vector of variances before the reshape. -/
theorem vec_norm {N H : ℕ} (hc : (⟨1, ![H]⟩ : Shape).ShapeCasts ⟨2, ![1, H]⟩)
    (hb : (⟨2, ![1, H]⟩ : Shape).Broadcasts ⟨2, ![N, H]⟩)
    (a : FVec Ideal ⟨2, ![N, H]⟩ .f32) (m v g be : FVec Ideal ⟨1, ![H]⟩ .f32) :
    addf (mulf (mulf (subf a (broadcastTo ⟨2, ![N, H]⟩ (shapeCast ⟨2, ![1, H]⟩ m hc) hb))
        (broadcastTo ⟨2, ![N, H]⟩ (shapeCast ⟨2, ![1, H]⟩
          (rsqrt (addf v (broadcast ⟨1, ![H]⟩ (Scalar.ofBits .f32 0x3A83126F#32)))) hc) hb))
        (broadcastTo ⟨2, ![N, H]⟩ (shapeCast ⟨2, ![1, H]⟩ g hc) hb))
        (broadcastTo ⟨2, ![N, H]⟩ (shapeCast ⟨2, ![1, H]⟩ be hc) hb)
      = norm a (vec g) (vec be) (vec m) (vec v) := by
  funext i
  obtain ⟨p, q, rfl⟩ : ∃ (p : Fin N) (q : Fin H), i = ix2 p q := ⟨i 0, i 1, eq_ix2 i⟩
  simp only [addf_apply, mulf_apply, subf_apply]
  rw [bcast_vec hc hb m p q, bcast_vec hc hb g p q, bcast_vec hc hb be p q,
    bcast_vec hc hb (rsqrt (addf v (broadcast ⟨1, ![H]⟩ (Scalar.ofBits .f32 0x3A83126F#32)))) p q]
  rfl

/-- A one-entry vector reshaped to a one-by-one matrix and broadcast over a matrix reads its entry everywhere. -/
theorem bcast_one {N H : ℕ} (hc : (⟨1, ![1]⟩ : Shape).ShapeCasts ⟨2, ![1, 1]⟩)
    (hb : (⟨2, ![1, 1]⟩ : Shape).Broadcasts ⟨2, ![N, H]⟩) (y : (⟨1, ![1]⟩ : Shape).Idx → EReal) (p : Fin N) (q : Fin H) :
    broadcastTo (⟨2, ![N, H]⟩ : Shape) (shapeCast (⟨2, ![1, 1]⟩ : Shape) y hc) hb (ix2 p q) = y (ix1 0) := by
  refine (broadcastTo_apply (shapeCast (⟨2, ![1, 1]⟩ : Shape) y hc) hb (ix2 p q) (ix2 0 0) fun a => ?_).trans
    (shapeCast_apply y hc (ix2 0 0) (ix1 0) (by rw [Shape.rowMajor_val_two, Shape.rowMajor_val_one]; rfl))
  match a with
  | ⟨0, _⟩ => simp
  | ⟨1, _⟩ => simp

/-- The scaled row plus the pooled row, the scale being one plus the one-entry vector's entry. -/
theorem vec_mix {N : ℕ} (hc : (⟨1, ![1]⟩ : Shape).ShapeCasts ⟨2, ![1, 1]⟩)
    (hb : (⟨2, ![1, 1]⟩ : Shape).Broadcasts ⟨2, ![N, 128]⟩)
    (hs : (⟨2, ![N, 128]⟩ : Shape).ShapeCasts ⟨2, ![N, 128]⟩)
    (e : FVec Ideal ⟨1, ![1]⟩ .f32) (x p : FVec Ideal ⟨2, ![N, 128]⟩ .f32) :
    addf (mulf (broadcastTo ⟨2, ![N, 128]⟩ (shapeCast ⟨2, ![1, 1]⟩
        (addf (broadcast ⟨1, ![1]⟩ (Scalar.ofBits .f32 0x3F800000#32)) e) hc) hb) x) (shapeCast ⟨2, ![N, 128]⟩ p hs)
      = mix (one + e (ix1 0)) x p := by
  rw [shapeCast_self p hs]
  funext i
  obtain ⟨r, q, rfl⟩ : ∃ (r : Fin N) (q : Fin 128), i = ix2 r q := ⟨i 0, i 1, eq_ix2 i⟩
  simp only [addf_apply, mulf_apply]
  rw [bcast_one hc hb (addf (broadcast ⟨1, ![1]⟩ (Scalar.ofBits .f32 0x3F800000#32)) e) r q]
  rfl

/-! ## The two bodies -/

/-- The edge kernel's stored value is the edge message of the blocks it loads. -/
theorem pay_edge (x0 : Vec Ideal S5000x16 .f32) (x2 : Vec Ideal S16x256 .f32) (x5 : Vec Ideal S256 .f32)
    (x10 : Vec Ideal S256x128 .f32) (x13 : Vec Ideal S128 .f32) (x17 : Vec Ideal S5000x128 .f32) :
    k0_pay1 (F := Ideal) x0 x2 x5 x10 x13 x17 = msg (E := 5000) x0 x17 x2 (vec x5) x10 (vec x13) := by
  unfold k0_pay1
  dsimp only
  -- the first product and bias, then the second over its result
  rw [vec_dense (N := 5000) (K := 16) (H := 256) dot_S5000x16_S16x256_S5000x256_1_0_0_1_n_n rfl
      shapeCasts_S256_S1x256 broadcasts_S1x256_S5000x256 bitsLt_bf16_f32 x0 x2 x5,
    vec_dense (N := 5000) (K := 256) (H := 128) dot_S5000x256_S256x128_S5000x128_1_0_0_1_n_n rfl
      shapeCasts_S128_S1x128 broadcasts_S1x128_S5000x128 bitsLt_bf16_f32
      (dense (N := 5000) (K := 16) (H := 256) x0 x2 (vec x5)) x10 x13]
  -- the sender's rows come through a reshape to their own shape
  rw [shapeCast_self x17 shapeCasts_S5000x128_S5000x128]
  -- the rectifier is a maximum with the zero word
  rfl

/-- The node kernel's stored value is the node update of the blocks it loads. -/
theorem pay_node (v0 : Vec Ideal S1 .f32) (v3 v7 : Vec Ideal S2000x128 .f32) (v11 : Vec Ideal S128x256 .f32)
    (v14 v18 v22 v29 v33 : Vec Ideal S256 .f32) (v40 : Vec Ideal S256x128 .f32)
    (v43 v47 v51 v58 v62 : Vec Ideal S128 .f32) :
    k1_pay1 (F := Ideal) (k1_pay2 (F := Ideal) v0 v3 v7 v11 v14 v18 v22 v29 v33) v40 v43 v47 v51 v58 v62
      = node (N := 2000) v3 v7 (one + v0 (ix1 0)) v11 (vec v14) (vec v29) (vec v33) (vec v18) (vec v22)
          v40 (vec v43) (vec v58) (vec v62) (vec v47) (vec v51) := by
  unfold k1_pay1 k1_pay2
  dsimp only
  -- the mix of the node's own rows and the pooled rows
  rw [vec_mix (N := 2000) shapeCasts_S1_S1x1 broadcasts_S1x1_S2000x128 shapeCasts_S2000x128_S2000x128 v0 v3 v7]
  -- the first product and bias, and its normalisation
  rw [vec_dense (N := 2000) (K := 128) (H := 256) dot_S2000x128_S128x256_S2000x256_1_0_0_1_n_n rfl
      shapeCasts_S256_S1x256 broadcasts_S1x256_S2000x256 bitsLt_bf16_f32
      (mix (N := 2000) (one + v0 (ix1 0)) v3 v7) v11 v14]
  rw [vec_norm (N := 2000) (H := 256) shapeCasts_S256_S1x256 broadcasts_S1x256_S2000x256
      (dense (N := 2000) (K := 128) (H := 256) (mix (N := 2000) (one + v0 (ix1 0)) v3 v7) v11 (vec v14))
      v18 v22 v29 v33]
  -- the rectifier
  rw [vec_relu (S := S2000x256)
      (norm (N := 2000) (H := 256)
        (dense (N := 2000) (K := 128) (H := 256) (mix (N := 2000) (one + v0 (ix1 0)) v3 v7) v11 (vec v14))
        (vec v29) (vec v33) (vec v18) (vec v22))]
  -- the second product and bias, and its normalisation
  rw [vec_dense (N := 2000) (K := 256) (H := 128) dot_S2000x256_S256x128_S2000x128_1_0_0_1_n_n rfl
      shapeCasts_S128_S1x128 broadcasts_S1x128_S2000x128 bitsLt_bf16_f32
      (relu (S := S2000x256)
        (norm (N := 2000) (H := 256)
          (dense (N := 2000) (K := 128) (H := 256) (mix (N := 2000) (one + v0 (ix1 0)) v3 v7) v11 (vec v14))
          (vec v29) (vec v33) (vec v18) (vec v22)))
      v40 v43]
  rw [vec_norm (N := 2000) (H := 128) shapeCasts_S128_S1x128 broadcasts_S1x128_S2000x128
      (dense (N := 2000) (K := 256) (H := 128)
        (relu (S := S2000x256)
          (norm (N := 2000) (H := 256)
            (dense (N := 2000) (K := 128) (H := 256) (mix (N := 2000) (one + v0 (ix1 0)) v3 v7) v11 (vec v14))
            (vec v29) (vec v33) (vec v18) (vec v22)))
        v40 (vec v43))
      v47 v51 v58 v62]
  -- what is left is the definition of the node update
  rfl

end Cert.Gin

end
-- ==== Proof.Region0.lean ====
/-
  The first region: 160 grid points, point t working on edges 5000 t .. 5000 t + 4999. Each point writes back the edge
  message of its block of rows, and the blocks tile the 800000 rows, so after the region the output array is the edge
  message of the whole arrays as the region found them.
-/
import proofs.«428133_j36799279792140_1_alg».proof.Proof.Payload
import proofs.«428133_j36799279792140_1_alg».proof.Proof.Gen.KernelIdeal.Frame

set_option maxRecDepth 16384

noncomputable section

open Idealize.ShloMosaic Idealize.ShloMosaic.ValueIdx Idealize.ShloMosaic.TcCoe Idealize.SL.Sem

namespace Cert.Gin

open Cert.KernelIdeal Cert.KernelIdeal.Gen Cert.Mlp
open Idealize.ShloMosaic.Pipeline (Dat)

-- the TensorCore's buffer contents when the region is entered
variable (V : (c : Dev nD) → (b : Ref sig .tc) → Buf (Elt Ideal) ((c : Thread nD τ).loc b))

namespace EdgeRegion

/-! ## Where each block sits in its array -/

theorem zero2 : (![0, 0] : Fin 2 → Nat) = fun _ => 0 := funext fun a => by fin_cases a <;> rfl
theorem zero1 : (![0] : Fin 1 → Nat) = fun _ => 0 := funext fun a => by fin_cases a; rfl

/-- The block indices at grid point `t`, decided over the 160 points: the edge features, the gathered rows and the
    output are at row block `t`, column block 0; the two weight matrices and the two bias vectors are at block 0. -/
theorem block_index : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 1) = 0
  ∧ win0_4.index t (0 : Fin 2) = 0 ∧ win0_4.index t (1 : Fin 2) = 0
  ∧ win0_5.index t (0 : Fin 1) = 0
  ∧ win0_6.index t (0 : Fin 2) = t.val ∧ win0_6.index t (1 : Fin 2) = 0 :=
  (by decide +kernel : ∀ t : Fin grid0.N, _)

/-- Row `p` of block `t` is row `5000 t + p` of the 800000. -/
theorem row_lt (t : Fin cfg0.N) (p : Fin 5000) : 5000 * t.val + p.val < 800000 := by
  have h1 : t.val < 160 := t.isLt
  have h2 := p.isLt
  omega

/-- The edge-feature block at point `t`: its row `p` is row `5000 t + p` of the array. -/
theorem feat_block (c : Dev nD) (t : Fin cfg0.N) (p : Fin 5000) (k : Fin 16) :
    (iblk0 V c 0 t : Vec Ideal S5000x16 .f32) (ix2 p k)
      = (V c main_arg1 : S800000x16.Idx → EReal) (ix2 ⟨5000 * t.val + p.val, row_lt t p⟩ k) := by
  obtain ⟨e0, e1, -⟩ := block_index t
  unfold iblk0
  rw [View.read_apply]
  show (V c main_arg1 : S800000x16.Idx → EReal) (((cfg0.win 0).blk t).view.emb (ix2 p k)) = _
  refine congrArg (V c main_arg1 : S800000x16.Idx → EReal) ?_
  funext a
  apply Fin.ext
  match a with
  | ⟨0, _⟩ => show win0_0.index t (0 : Fin 2) * 5000 + 1 * p.val = 5000 * t.val + p.val; rw [e0]; omega
  | ⟨1, _⟩ => show win0_0.index t (1 : Fin 2) * 16 + 1 * k.val = k.val; rw [e1]; omega

/-- The block of gathered rows at point `t`: its row `p` is row `5000 t + p` of the array. -/
theorem gath_block (c : Dev nD) (t : Fin cfg0.N) (p : Fin 5000) (q : Fin 128) :
    (iblk0 V c 1 t : Vec Ideal S5000x128 .f32) (ix2 p q)
      = (V c main_v0 : S800000x128.Idx → EReal) (ix2 ⟨5000 * t.val + p.val, row_lt t p⟩ q) := by
  obtain ⟨-, -, e0, e1, -⟩ := block_index t
  unfold iblk0
  rw [View.read_apply]
  show (V c main_v0 : S800000x128.Idx → EReal) (((cfg0.win 1).blk t).view.emb (ix2 p q)) = _
  refine congrArg (V c main_v0 : S800000x128.Idx → EReal) ?_
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * q.val = q.val; rw [e1]; omega

/-- The first weight matrix is one block: every point reads the whole of it. -/
theorem We1_block (c : Dev nD) (t : Fin cfg0.N) :
    (iblk0 V c 2 t : Vec Ideal S16x256 .f32) = (V c main_arg4 : S16x256.Idx → EReal) := by
  obtain ⟨-, -, -, -, e0, e1, -⟩ := block_index t
  funext j
  unfold iblk0
  rw [View.read_apply]
  show (V c main_arg4 : S16x256.Idx → EReal) (((cfg0.win 2).blk t).view.emb j) = _
  refine congrArg (V c main_arg4 : S16x256.Idx → EReal) ?_
  funext a
  apply Fin.ext
  match a with
  | ⟨0, _⟩ => show win0_2.index t (0 : Fin 2) * 16 + 1 * (j 0).val = (j 0).val; rw [e0]; omega
  | ⟨1, _⟩ => show win0_2.index t (1 : Fin 2) * 256 + 1 * (j 1).val = (j 1).val; rw [e1]; omega

/-- The first bias vector is one block. -/
theorem be1_block (c : Dev nD) (t : Fin cfg0.N) :
    (iblk0 V c 3 t : Vec Ideal S256 .f32) = (V c main_arg5 : S256.Idx → EReal) := by
  obtain ⟨-, -, -, -, -, -, e0, -⟩ := block_index t
  funext j
  unfold iblk0
  rw [View.read_apply]
  show (V c main_arg5 : S256.Idx → EReal) (((cfg0.win 3).blk t).view.emb j) = _
  refine congrArg (V c main_arg5 : S256.Idx → EReal) ?_
  funext a
  apply Fin.ext
  match a with
  | ⟨0, _⟩ => show win0_3.index t (0 : Fin 1) * 256 + 1 * (j 0).val = (j 0).val; rw [e0]; omega

/-- The second weight matrix is one block. -/
theorem We2_block (c : Dev nD) (t : Fin cfg0.N) :
    (iblk0 V c 4 t : Vec Ideal S256x128 .f32) = (V c main_arg6 : S256x128.Idx → EReal) := by
  obtain ⟨-, -, -, -, -, -, -, e0, e1, -⟩ := block_index t
  funext j
  unfold iblk0
  rw [View.read_apply]
  show (V c main_arg6 : S256x128.Idx → EReal) (((cfg0.win 4).blk t).view.emb j) = _
  refine congrArg (V c main_arg6 : S256x128.Idx → EReal) ?_
  funext a
  apply Fin.ext
  match a with
  | ⟨0, _⟩ => show win0_4.index t (0 : Fin 2) * 256 + 1 * (j 0).val = (j 0).val; rw [e0]; omega
  | ⟨1, _⟩ => show win0_4.index t (1 : Fin 2) * 128 + 1 * (j 1).val = (j 1).val; rw [e1]; omega

/-- The second bias vector is one block. -/
theorem be2_block (c : Dev nD) (t : Fin cfg0.N) :
    (iblk0 V c 5 t : Vec Ideal S128 .f32) = (V c main_arg7 : S128.Idx → EReal) := by
  obtain ⟨-, -, -, -, -, -, -, -, -, e0, -⟩ := block_index t
  funext j
  unfold iblk0
  rw [View.read_apply]
  show (V c main_arg7 : S128.Idx → EReal) (((cfg0.win 5).blk t).view.emb j) = _
  refine congrArg (V c main_arg7 : S128.Idx → EReal) ?_
  funext a
  apply Fin.ext
  match a with
  | ⟨0, _⟩ => show win0_5.index t (0 : Fin 1) * 128 + 1 * (j 0).val = (j 0).val; rw [e0]; omega

/-- Entry `(p, q)` of the output block at point `t` is entry `(5000 t + p, q)` of the output array. -/
theorem out_coord (t : Fin cfg0.N) (p : Fin 5000) (q : Fin 128) :
    ((cfg0.win 6).blk t).view.emb (ix2 p q) = (ix2 ⟨5000 * t.val + p.val, row_lt t p⟩ q : S800000x128.Idx) := by
  obtain ⟨-, -, -, -, -, -, -, -, -, -, e0, e1⟩ := block_index t
  funext a
  apply Fin.ext
  match a with
  | ⟨0, _⟩ => show win0_6.index t (0 : Fin 2) * 5000 + 1 * p.val = 5000 * t.val + p.val; rw [e0]; omega
  | ⟨1, _⟩ => show win0_6.index t (1 : Fin 2) * 128 + 1 * q.val = q.val; rw [e1]; omega

/-! ## What each point writes, and the rows the points cover -/

/-- The edge message of the whole arrays as the region found them. -/
abbrev edgeMsg (c : Dev nD) : S800000x128.Idx → EReal :=
  msg (E := 800000) (V c main_arg1) (V c main_v0) (V c main_arg4) (vec (V c main_arg5)) (V c main_arg6)
    (vec (V c main_arg7))

/-- Point `t` writes back block `t` of the whole arrays' edge message: the body computes the message of its blocks,
    a message reads only the row it is asked for, and row `p` of each row block is row `5000 t + p` of its array. -/
theorem written_eq (c : Dev nD) (t : Fin cfg0.N) :
    (dat0 (F := Ideal) V c).flushed 6 t = ((cfg0.win 6).blk t).view.read (Elt Ideal) (edgeMsg V c) := by
  show (cfg0.win 6).cut (grid0.coords t) ((dat0 V c).after 6 t) = _
  rw [after0_6]
  unfold out0_6
  rw [View.canon_unit_zero zero2]
  simp only [View.ld_unit_zero (S := S5000x16) zero2, View.ld_unit_zero (S := S16x256) zero2,
    View.ld_unit_zero (S := S256) zero1, View.ld_unit_zero (S := S256x128) zero2, View.ld_unit_zero (S := S128) zero1,
    View.ld_unit_zero (S := S5000x128) zero2]
  rw [pay_edge (iblk0 V c 0 t) (iblk0 V c 2 t) (iblk0 V c 3 t) (iblk0 V c 4 t) (iblk0 V c 5 t) (iblk0 V c 1 t)]
  rw [We1_block V c t, be1_block V c t, We2_block V c t, be2_block V c t]
  funext j
  obtain ⟨p, q, rfl⟩ : ∃ (p : Fin 5000) (q : Fin 128), j = ix2 p q := ⟨j 0, j 1, eq_ix2 j⟩
  show msg (E := 5000) (iblk0 V c 0 t) (iblk0 V c 1 t) (V c main_arg4) (vec (V c main_arg5)) (V c main_arg6)
      (vec (V c main_arg7)) (ix2 p q) = edgeMsg V c (((cfg0.win 6).blk t).view.emb (ix2 p q))
  rw [out_coord t p q]
  exact msg_row (iblk0 V c 0 t) (V c main_arg1) (iblk0 V c 1 t) (V c main_v0) (V c main_arg4) (vec (V c main_arg5))
    (V c main_arg6) (vec (V c main_arg7)) p ⟨5000 * t.val + p.val, row_lt t p⟩ q
    (fun k => feat_block V c t p k) (gath_block V c t p q)

/-- An index of the output array is in point `t`'s block iff each coordinate is in the block's range on its axis. -/
theorem mem_block (t : Fin cfg0.N) (i : S800000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v1).slice (win0_6.rect t)).set ↔ _
  rw [View.set_slice_whole, Rect.mem_set_unit]
  exact Iff.rfl

/-- The blocks tile the array: row `r` is in the block of point `r / 5000`. -/
theorem rows_covered (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  have ht : (i 0).val / 5000 < 160 := by omega
  refine ⟨⟨(i 0).val / 5000, ht⟩, flush0_6 _, ?_⟩
  rw [mem_block]
  obtain ⟨-, -, -, -, -, -, -, -, -, -, e0, e1⟩ := block_index ⟨(i 0).val / 5000, ht⟩
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]
    omega

end EdgeRegion

/-- After the first region its output array is the edge message of the arrays as the region found them. -/
theorem arr0 (c : Dev nD) :
    (dat0 (F := Ideal) V c).arrAt 6 cfg0.N
      = msg (E := 800000) (V c main_arg1) (V c main_v0) (V c main_arg4) (vec (V c main_arg5)) (V c main_arg6)
          (vec (V c main_arg7)) := by
  exact (dat0 V c).arrAt_eq_of_cover 6 (EdgeRegion.edgeMsg V c) (fun t _ => EdgeRegion.written_eq V c t)
    EdgeRegion.rows_covered

end Cert.Gin

end
-- ==== Proof.Region1.lean ====
/-
  The second region: 25 grid points, point t working on nodes 2000 t .. 2000 t + 1999. Each point writes back the node
  update of its block of rows, and the blocks tile the 50000 rows, so after the region the output array is the node update
  of the whole arrays as the region found them.
-/
import proofs.«428133_j36799279792140_1_alg».proof.Proof.Payload
import proofs.«428133_j36799279792140_1_alg».proof.Proof.Gen.KernelIdeal.Frame

set_option maxRecDepth 16384

noncomputable section

open Idealize.ShloMosaic Idealize.ShloMosaic.ValueIdx Idealize.ShloMosaic.TcCoe Idealize.SL.Sem

namespace Cert.Gin

open Cert.KernelIdeal Cert.KernelIdeal.Gen Cert.Mlp
open Idealize.ShloMosaic.Pipeline (Dat)

-- the TensorCore's buffer contents when the region is entered
variable (V : (c : Dev nD) → (b : Ref sig .tc) → Buf (Elt Ideal) ((c : Thread nD τ).loc b))

namespace NodeRegion

/-! ## Zero offsets, however they are spelt -/

theorem hz2 : (![0, 0] : Fin 2 → Nat) = fun _ => 0 := funext fun a => by fin_cases a <;> rfl
theorem hz1 : (![0] : Fin 1 → Nat) = fun _ => 0 := funext fun a => by fin_cases a; rfl

/-! ## The index maps over the grid -/

/-- The three row-blocked windows (a node's own row, what was pooled into it, the output) sit at block (t, 0) at point t. -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_15.index t (0 : Fin 2) = t.val ∧ win1_15.index t (1 : Fin 2) = 0 :=
  (by decide +kernel : ∀ t : Fin grid1.N, _)

/-- The scale, the two weight matrices and the ten vectors stay at block 0 at every point. -/
theorem idx_whole : ∀ t : Fin cfg1.N, win1_2.index t (0 : Fin 1) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 1) = 0 ∧ win1_8.index t (0 : Fin 1) = 0
    ∧ win1_9.index t (0 : Fin 2) = 0 ∧ win1_9.index t (1 : Fin 2) = 0
    ∧ win1_10.index t (0 : Fin 1) = 0 ∧ win1_11.index t (0 : Fin 1) = 0 ∧ win1_12.index t (0 : Fin 1) = 0
    ∧ win1_13.index t (0 : Fin 1) = 0 ∧ win1_14.index t (0 : Fin 1) = 0 :=
  (by decide +kernel : ∀ t : Fin grid1.N, _)

/-! ## Each window's block, read off its array -/

/-- Row p of point t's block of the node features is row 2000 t + p of the array. -/
theorem xblk_apply (c : Dev nD) (t : Fin cfg1.N) (p : Fin 2000) (q : Fin 128) (h : 2000 * t.val + p.val < 50000) :
    (iblk1 V c 0 t : Vec Ideal S2000x128 .f32) (ix2 p q) = V c main_arg0 (ix2 ⟨2000 * t.val + p.val, h⟩ q) := by
  obtain ⟨e0, e1, -⟩ := idx_rows t
  show V c main_arg0 (((cfg1.win 0).blk t).view.emb (ix2 p q)) = V c main_arg0 _
  refine congrArg (V c main_arg0) (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 128 + 1 * q.val = q.val; rw [e1]; omega

/-- Row p of point t's block of the pooled messages is row 2000 t + p of the array. -/
theorem pblk_apply (c : Dev nD) (t : Fin cfg1.N) (p : Fin 2000) (q : Fin 128) (h : 2000 * t.val + p.val < 50000) :
    (iblk1 V c 1 t : Vec Ideal S2000x128 .f32) (ix2 p q) = V c main_v4 (ix2 ⟨2000 * t.val + p.val, h⟩ q) := by
  obtain ⟨-, -, e0, e1, -⟩ := idx_rows t
  show V c main_v4 (((cfg1.win 1).blk t).view.emb (ix2 p q)) = V c main_v4 _
  refine congrArg (V c main_v4) (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 128 + 1 * q.val = q.val; rw [e1]; omega

/-- The scale's block is its one-entry array. -/
theorem blk2 (c : Dev nD) (t : Fin cfg1.N) : (iblk1 V c 2 t : Vec Ideal S1 .f32) = V c main_arg8 := by
  obtain ⟨e, -⟩ := idx_whole t
  funext y
  show V c main_arg8 (((cfg1.win 2).blk t).view.emb y) = V c main_arg8 y
  refine congrArg (V c main_arg8) (funext fun a => Fin.ext ?_)
  match a with
  | ⟨0, _⟩ => show win1_2.index t (0 : Fin 1) * 1 + 1 * (y 0).val = (y 0).val; rw [e]; omega

/-- The first weight matrix's block is the matrix. -/
theorem blk3 (c : Dev nD) (t : Fin cfg1.N) : (iblk1 V c 3 t : Vec Ideal S128x256 .f32) = V c main_arg9 := by
  obtain ⟨-, e0, e1, -⟩ := idx_whole t
  funext y
  show V c main_arg9 (((cfg1.win 3).blk t).view.emb y) = V c main_arg9 y
  refine congrArg (V c main_arg9) (funext fun a => Fin.ext ?_)
  match a with
  | ⟨0, _⟩ => show win1_3.index t (0 : Fin 2) * 128 + 1 * (y 0).val = (y 0).val; rw [e0]; omega
  | ⟨1, _⟩ => show win1_3.index t (1 : Fin 2) * 256 + 1 * (y 1).val = (y 1).val; rw [e1]; omega

/-- The second weight matrix's block is the matrix. -/
theorem blk9 (c : Dev nD) (t : Fin cfg1.N) : (iblk1 V c 9 t : Vec Ideal S256x128 .f32) = V c main_arg15 := by
  have e0 : win1_9.index t (0 : Fin 2) = 0 := (idx_whole t).2.2.2.2.2.2.2.2.1
  have e1 : win1_9.index t (1 : Fin 2) = 0 := (idx_whole t).2.2.2.2.2.2.2.2.2.1
  funext y
  show V c main_arg15 (((cfg1.win 9).blk t).view.emb y) = V c main_arg15 y
  refine congrArg (V c main_arg15) (funext fun a => Fin.ext ?_)
  match a with
  | ⟨0, _⟩ => show win1_9.index t (0 : Fin 2) * 256 + 1 * (y 0).val = (y 0).val; rw [e0]; omega
  | ⟨1, _⟩ => show win1_9.index t (1 : Fin 2) * 128 + 1 * (y 1).val = (y 1).val; rw [e1]; omega

/-- The first bias's block is the bias. -/
theorem blk4 (c : Dev nD) (t : Fin cfg1.N) : (iblk1 V c 4 t : Vec Ideal S256 .f32) = V c main_arg10 := by
  have e : win1_4.index t (0 : Fin 1) = 0 := (idx_whole t).2.2.2.1
  funext y
  show V c main_arg10 (((cfg1.win 4).blk t).view.emb y) = V c main_arg10 y
  refine congrArg (V c main_arg10) (funext fun a => Fin.ext ?_)
  match a with
  | ⟨0, _⟩ => show win1_4.index t (0 : Fin 1) * 256 + 1 * (y 0).val = (y 0).val; rw [e]; omega

/-- The first normalisation's scale, whole. -/
theorem blk5 (c : Dev nD) (t : Fin cfg1.N) : (iblk1 V c 5 t : Vec Ideal S256 .f32) = V c main_arg11 := by
  have e : win1_5.index t (0 : Fin 1) = 0 := (idx_whole t).2.2.2.2.1
  funext y
  show V c main_arg11 (((cfg1.win 5).blk t).view.emb y) = V c main_arg11 y
  refine congrArg (V c main_arg11) (funext fun a => Fin.ext ?_)
  match a with
  | ⟨0, _⟩ => show win1_5.index t (0 : Fin 1) * 256 + 1 * (y 0).val = (y 0).val; rw [e]; omega

/-- The first normalisation's shift, whole. -/
theorem blk6 (c : Dev nD) (t : Fin cfg1.N) : (iblk1 V c 6 t : Vec Ideal S256 .f32) = V c main_arg12 := by
  have e : win1_6.index t (0 : Fin 1) = 0 := (idx_whole t).2.2.2.2.2.1
  funext y
  show V c main_arg12 (((cfg1.win 6).blk t).view.emb y) = V c main_arg12 y
  refine congrArg (V c main_arg12) (funext fun a => Fin.ext ?_)
  match a with
  | ⟨0, _⟩ => show win1_6.index t (0 : Fin 1) * 256 + 1 * (y 0).val = (y 0).val; rw [e]; omega

/-- The first normalisation's mean, whole. -/
theorem blk7 (c : Dev nD) (t : Fin cfg1.N) : (iblk1 V c 7 t : Vec Ideal S256 .f32) = V c main_arg13 := by
  have e : win1_7.index t (0 : Fin 1) = 0 := (idx_whole t).2.2.2.2.2.2.1
  funext y
  show V c main_arg13 (((cfg1.win 7).blk t).view.emb y) = V c main_arg13 y
  refine congrArg (V c main_arg13) (funext fun a => Fin.ext ?_)
  match a with
  | ⟨0, _⟩ => show win1_7.index t (0 : Fin 1) * 256 + 1 * (y 0).val = (y 0).val; rw [e]; omega

/-- The first normalisation's variance, whole. -/
theorem blk8 (c : Dev nD) (t : Fin cfg1.N) : (iblk1 V c 8 t : Vec Ideal S256 .f32) = V c main_arg14 := by
  have e : win1_8.index t (0 : Fin 1) = 0 := (idx_whole t).2.2.2.2.2.2.2.1
  funext y
  show V c main_arg14 (((cfg1.win 8).blk t).view.emb y) = V c main_arg14 y
  refine congrArg (V c main_arg14) (funext fun a => Fin.ext ?_)
  match a with
  | ⟨0, _⟩ => show win1_8.index t (0 : Fin 1) * 256 + 1 * (y 0).val = (y 0).val; rw [e]; omega

/-- The second bias's block is the bias. -/
theorem blk10 (c : Dev nD) (t : Fin cfg1.N) : (iblk1 V c 10 t : Vec Ideal S128 .f32) = V c main_arg16 := by
  have e : win1_10.index t (0 : Fin 1) = 0 := (idx_whole t).2.2.2.2.2.2.2.2.2.2.1
  funext y
  show V c main_arg16 (((cfg1.win 10).blk t).view.emb y) = V c main_arg16 y
  refine congrArg (V c main_arg16) (funext fun a => Fin.ext ?_)
  match a with
  | ⟨0, _⟩ => show win1_10.index t (0 : Fin 1) * 128 + 1 * (y 0).val = (y 0).val; rw [e]; omega

/-- The second normalisation's scale, whole. -/
theorem blk11 (c : Dev nD) (t : Fin cfg1.N) : (iblk1 V c 11 t : Vec Ideal S128 .f32) = V c main_arg17 := by
  have e : win1_11.index t (0 : Fin 1) = 0 := (idx_whole t).2.2.2.2.2.2.2.2.2.2.2.1
  funext y
  show V c main_arg17 (((cfg1.win 11).blk t).view.emb y) = V c main_arg17 y
  refine congrArg (V c main_arg17) (funext fun a => Fin.ext ?_)
  match a with
  | ⟨0, _⟩ => show win1_11.index t (0 : Fin 1) * 128 + 1 * (y 0).val = (y 0).val; rw [e]; omega

/-- The second normalisation's shift, whole. -/
theorem blk12 (c : Dev nD) (t : Fin cfg1.N) : (iblk1 V c 12 t : Vec Ideal S128 .f32) = V c main_arg18 := by
  have e : win1_12.index t (0 : Fin 1) = 0 := (idx_whole t).2.2.2.2.2.2.2.2.2.2.2.2.1
  funext y
  show V c main_arg18 (((cfg1.win 12).blk t).view.emb y) = V c main_arg18 y
  refine congrArg (V c main_arg18) (funext fun a => Fin.ext ?_)
  match a with
  | ⟨0, _⟩ => show win1_12.index t (0 : Fin 1) * 128 + 1 * (y 0).val = (y 0).val; rw [e]; omega

/-- The second normalisation's mean, whole. -/
theorem blk13 (c : Dev nD) (t : Fin cfg1.N) : (iblk1 V c 13 t : Vec Ideal S128 .f32) = V c main_arg19 := by
  have e : win1_13.index t (0 : Fin 1) = 0 := (idx_whole t).2.2.2.2.2.2.2.2.2.2.2.2.2.1
  funext y
  show V c main_arg19 (((cfg1.win 13).blk t).view.emb y) = V c main_arg19 y
  refine congrArg (V c main_arg19) (funext fun a => Fin.ext ?_)
  match a with
  | ⟨0, _⟩ => show win1_13.index t (0 : Fin 1) * 128 + 1 * (y 0).val = (y 0).val; rw [e]; omega

/-- The second normalisation's variance, whole. -/
theorem blk14 (c : Dev nD) (t : Fin cfg1.N) : (iblk1 V c 14 t : Vec Ideal S128 .f32) = V c main_arg20 := by
  have e : win1_14.index t (0 : Fin 1) = 0 := (idx_whole t).2.2.2.2.2.2.2.2.2.2.2.2.2.2
  funext y
  show V c main_arg20 (((cfg1.win 14).blk t).view.emb y) = V c main_arg20 y
  refine congrArg (V c main_arg20) (funext fun a => Fin.ext ?_)
  match a with
  | ⟨0, _⟩ => show win1_14.index t (0 : Fin 1) * 128 + 1 * (y 0).val = (y 0).val; rw [e]; omega

/-! ## What a point writes back -/

/-- The node update of the whole arrays as the region finds them. -/
abbrev G (c : Dev nD) : Mat 50000 128 :=
  node (N := 50000) (V c main_arg0) (V c main_v4) (one + V c main_arg8 (ix1 0)) (V c main_arg9)
    (vec (V c main_arg10)) (vec (V c main_arg11)) (vec (V c main_arg12)) (vec (V c main_arg13)) (vec (V c main_arg14))
    (V c main_arg15) (vec (V c main_arg16)) (vec (V c main_arg17)) (vec (V c main_arg18)) (vec (V c main_arg19))
    (vec (V c main_arg20))

/-- Entry (p, q) of point t's output block sits at (2000 t + p, q) of the output array. -/
theorem oblk_emb (t : Fin cfg1.N) (p : Fin 2000) (q : Fin 128) (h : 2000 * t.val + p.val < 50000) :
    ((cfg1.win 15).blk t).view.emb (ix2 p q) = (ix2 ⟨2000 * t.val + p.val, h⟩ q : S50000x128.Idx) := by
  obtain ⟨-, -, -, -, e0, e1⟩ := idx_rows t
  funext a; apply Fin.ext
  match a with
  | ⟨0, _⟩ => show win1_15.index t (0 : Fin 2) * 2000 + 1 * p.val = 2000 * t.val + p.val; rw [e0]; omega
  | ⟨1, _⟩ => show win1_15.index t (1 : Fin 2) * 128 + 1 * q.val = q.val; rw [e1]; omega

/-- What point t writes back is block t of the node update of the whole arrays. -/
theorem flushed_eq (c : Dev nD) (t : Fin cfg1.N) :
    (dat1 V c).flushed 15 t = ((cfg1.win 15).blk t).view.read (Elt Ideal) (G V c) := by
  show (cfg1.win 15).cut (grid1.coords t) ((dat1 V c).after 15 t) = _
  rw [after1_15]
  unfold out1_15
  rw [View.canon_unit_zero hz2]
  simp only [View.ld_unit_zero (S := S2000x128) hz2, View.ld_unit_zero (S := S128x256) hz2,
    View.ld_unit_zero (S := S256x128) hz2, View.ld_unit_zero (S := S1) hz1, View.ld_unit_zero (S := S256) hz1,
    View.ld_unit_zero (S := S128) hz1]
  rw [pay_node (iblk1 V c 2 t) (iblk1 V c 0 t) (iblk1 V c 1 t) (iblk1 V c 3 t) (iblk1 V c 4 t) (iblk1 V c 7 t)
    (iblk1 V c 8 t) (iblk1 V c 5 t) (iblk1 V c 6 t) (iblk1 V c 9 t) (iblk1 V c 10 t) (iblk1 V c 13 t)
    (iblk1 V c 14 t) (iblk1 V c 11 t) (iblk1 V c 12 t)]
  rw [blk2 V c t, blk3 V c t, blk4 V c t, blk5 V c t, blk6 V c t, blk7 V c t, blk8 V c t, blk9 V c t, blk10 V c t,
    blk11 V c t, blk12 V c t, blk13 V c t, blk14 V c t]
  funext j
  obtain ⟨p, q, rfl⟩ : ∃ (p : Fin 2000) (q : Fin 128), j = ix2 p q := ⟨j 0, j 1, eq_ix2 j⟩
  have ht : t.val < 25 := t.isLt
  have hp : p.val < 2000 := p.isLt
  have h : 2000 * t.val + p.val < 50000 := by omega
  show node (N := 2000) (iblk1 V c 0 t) (iblk1 V c 1 t) (one + V c main_arg8 (ix1 0)) (V c main_arg9)
      (vec (V c main_arg10)) (vec (V c main_arg11)) (vec (V c main_arg12)) (vec (V c main_arg13)) (vec (V c main_arg14))
      (V c main_arg15) (vec (V c main_arg16)) (vec (V c main_arg17)) (vec (V c main_arg18)) (vec (V c main_arg19))
      (vec (V c main_arg20)) (ix2 p q)
    = G V c (((cfg1.win 15).blk t).view.emb (ix2 p q))
  rw [oblk_emb t p q h]
  exact node_row (N := 2000) (N' := 50000) (iblk1 V c 0 t) (iblk1 V c 1 t) (V c main_arg0) (V c main_v4)
    (one + V c main_arg8 (ix1 0)) (V c main_arg9)
    (vec (V c main_arg10)) (vec (V c main_arg11)) (vec (V c main_arg12)) (vec (V c main_arg13)) (vec (V c main_arg14))
    (V c main_arg15) (vec (V c main_arg16)) (vec (V c main_arg17)) (vec (V c main_arg18)) (vec (V c main_arg19))
    (vec (V c main_arg20)) p ⟨2000 * t.val + p.val, h⟩ q
    (fun k => xblk_apply V c t p k h) (fun k => pblk_apply V c t p k h)

/-! ## The blocks tile the array -/

/-- An index of the output array is in point t's block iff each coordinate is in the block's range on its axis. -/
theorem mem_blk (t : Fin cfg1.N) (i : S50000x128.Idx) :
    i ∈ ((cfg1.win 15).blk t).view.set ↔ ∀ a : Fin 2, win1_15.index t a * S2000x128.size a ≤ (i a).val
      ∧ (i a).val < win1_15.index t a * S2000x128.size a + S2000x128.size a := by
  show i ∈ ((View.whole main_v5).slice (win1_15.rect t)).set ↔ _
  rw [View.set_slice_whole, Rect.mem_set_unit]
  exact Iff.rfl

/-- Row r of the output array is in the block of point r / 2000. -/
theorem cover (i : S50000x128.Idx) :
    ∃ t : Fin cfg1.N, (cfg1.win 15).flush t = true ∧ i ∈ ((cfg1.win 15).blk t).view.set := by
  have hi0 : (i 0).val < 50000 := (i 0).isLt
  have hi1 : (i 1).val < 128 := (i 1).isLt
  have hN : (i 0).val / 2000 < cfg1.N := by show (i 0).val / 2000 < 25; omega
  obtain ⟨-, -, -, -, e0, e1⟩ := idx_rows ⟨(i 0).val / 2000, hN⟩
  refine ⟨⟨(i 0).val / 2000, hN⟩, flush1_15 _, ?_⟩
  rw [mem_blk]
  intro a
  match a with
  | ⟨0, _⟩ =>
    show win1_15.index ⟨(i 0).val / 2000, hN⟩ (0 : Fin 2) * 2000 ≤ (i 0).val
      ∧ (i 0).val < win1_15.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_15.index ⟨(i 0).val / 2000, hN⟩ (1 : Fin 2) * 128 ≤ (i 1).val
      ∧ (i 1).val < win1_15.index ⟨(i 0).val / 2000, hN⟩ (1 : Fin 2) * 128 + 128
    rw [e1]; omega

end NodeRegion

open NodeRegion in
/-- After the second region its output array is the node update of the arrays as the region found them. -/
theorem arr1 (c : Dev nD) :
    (dat1 (F := Ideal) V c).arrAt 15 cfg1.N
      = node (N := 50000) (V c main_arg0) (V c main_v4) (one + V c main_arg8 (ix1 0)) (V c main_arg9)
          (vec (V c main_arg10)) (vec (V c main_arg11)) (vec (V c main_arg12)) (vec (V c main_arg13)) (vec (V c main_arg14))
          (V c main_arg15) (vec (V c main_arg16)) (vec (V c main_arg17)) (vec (V c main_arg18)) (vec (V c main_arg19))
          (vec (V c main_arg20)) := by
  exact (dat1 V c).arrAt_eq_of_cover 15 (G V c) (fun t _ => flushed_eq V c t) cover

end Cert.Gin

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.HostK.lean ====
/-
  The host operations around the two regions, read back to the launch memory.

  Before the first region the sender's rows are taken from the node table at the wrapped indices, rows whose
  index fails the range test being filled with a fixed word; between the regions the messages are summed into their
  receivers' rows. No host operation and no region writes an argument array, so at every boundary an argument
  array still holds its launch contents. Chaining the two regions' values through these boundaries gives the
  program's result as one function of the launch memory.
-/
import proofs.«428133_j36799279792140_1_alg».proof.Proof.RunMain
import proofs.«428133_j36799279792140_1_alg».proof.Proof.Region0
import proofs.«428133_j36799279792140_1_alg».proof.Proof.Region1
import proofs.«428133_j36799279792140_1_alg».proof.Proof.LibTRef
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- The index column: each sender index wrapped the NumPy way (a negative index counts from the end), as a column. -/
def idxOf (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The range test of the index column, row by row: 0 ≤ index ≤ 49999. -/
def inRange (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows taken from the table: the gathered row where the index passes the range test, a fixed word elsewhere. -/
def takeRows (x : FVec F S50000x128 .f32) (src : IVec S800000 32) : FVec F S800000x128 .f32 :=
  select (broadcastInDim S800000x128 ![0] bcast_S800000_S800000x128_0 (inRange (idxOf src)))
    (Host.gather gather_S50000x128_S800000x1_S800000x128_1_0_n_n_0_1_1128 x (idxOf src))
    (broadcastInDim S800000x128 ![] bcast_S_S800000x128 (constant S_ .f32 0x7FC00000#32))

/-- The messages summed into their receivers' rows, from zero. -/
def pool (dst : IVec S800000 32) (u : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) u

variable (m : (ℓ : Loc nD τ sig) → Buf (Elt F) ℓ) (ρ : Dev nD → PrngReg)

/-- No operation of either host stretch writes the buffer. -/
macro "untouched" : tactic => `(tactic| (
  refine List.forall_iff_forall_mem.mp ?_
  simp only [hostOps0, hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Before the first region -/

theorem W1_main_arg0 (c : Dev nD) : W1 m ρ c (Proc.devRef .tc main_arg0) = m ((c : Thread nD τ).loc main_arg0) :=
  (StableHlo.after_of_forall_not_mem (b := (Proc.devRef .tc main_arg0)) _ _ (by untouched)).trans rfl
theorem W1_main_arg1 (c : Dev nD) : W1 m ρ c (Proc.devRef .tc main_arg1) = m ((c : Thread nD τ).loc main_arg1) :=
  (StableHlo.after_of_forall_not_mem (b := (Proc.devRef .tc main_arg1)) _ _ (by untouched)).trans rfl
theorem W1_main_arg2 (c : Dev nD) : W1 m ρ c (Proc.devRef .tc main_arg2) = m ((c : Thread nD τ).loc main_arg2) :=
  (StableHlo.after_of_forall_not_mem (b := (Proc.devRef .tc main_arg2)) _ _ (by untouched)).trans rfl
theorem W1_main_arg3 (c : Dev nD) : W1 m ρ c (Proc.devRef .tc main_arg3) = m ((c : Thread nD τ).loc main_arg3) :=
  (StableHlo.after_of_forall_not_mem (b := (Proc.devRef .tc main_arg3)) _ _ (by untouched)).trans rfl
theorem W1_main_arg4 (c : Dev nD) : W1 m ρ c (Proc.devRef .tc main_arg4) = m ((c : Thread nD τ).loc main_arg4) :=
  (StableHlo.after_of_forall_not_mem (b := (Proc.devRef .tc main_arg4)) _ _ (by untouched)).trans rfl
theorem W1_main_arg5 (c : Dev nD) : W1 m ρ c (Proc.devRef .tc main_arg5) = m ((c : Thread nD τ).loc main_arg5) :=
  (StableHlo.after_of_forall_not_mem (b := (Proc.devRef .tc main_arg5)) _ _ (by untouched)).trans rfl
theorem W1_main_arg6 (c : Dev nD) : W1 m ρ c (Proc.devRef .tc main_arg6) = m ((c : Thread nD τ).loc main_arg6) :=
  (StableHlo.after_of_forall_not_mem (b := (Proc.devRef .tc main_arg6)) _ _ (by untouched)).trans rfl
theorem W1_main_arg7 (c : Dev nD) : W1 m ρ c (Proc.devRef .tc main_arg7) = m ((c : Thread nD τ).loc main_arg7) :=
  (StableHlo.after_of_forall_not_mem (b := (Proc.devRef .tc main_arg7)) _ _ (by untouched)).trans rfl
theorem W1_main_arg8 (c : Dev nD) : W1 m ρ c (Proc.devRef .tc main_arg8) = m ((c : Thread nD τ).loc main_arg8) :=
  (StableHlo.after_of_forall_not_mem (b := (Proc.devRef .tc main_arg8)) _ _ (by untouched)).trans rfl
theorem W1_main_arg9 (c : Dev nD) : W1 m ρ c (Proc.devRef .tc main_arg9) = m ((c : Thread nD τ).loc main_arg9) :=
  (StableHlo.after_of_forall_not_mem (b := (Proc.devRef .tc main_arg9)) _ _ (by untouched)).trans rfl
theorem W1_main_arg10 (c : Dev nD) : W1 m ρ c (Proc.devRef .tc main_arg10) = m ((c : Thread nD τ).loc main_arg10) :=
  (StableHlo.after_of_forall_not_mem (b := (Proc.devRef .tc main_arg10)) _ _ (by untouched)).trans rfl
theorem W1_main_arg11 (c : Dev nD) : W1 m ρ c (Proc.devRef .tc main_arg11) = m ((c : Thread nD τ).loc main_arg11) :=
  (StableHlo.after_of_forall_not_mem (b := (Proc.devRef .tc main_arg11)) _ _ (by untouched)).trans rfl
theorem W1_main_arg12 (c : Dev nD) : W1 m ρ c (Proc.devRef .tc main_arg12) = m ((c : Thread nD τ).loc main_arg12) :=
  (StableHlo.after_of_forall_not_mem (b := (Proc.devRef .tc main_arg12)) _ _ (by untouched)).trans rfl
theorem W1_main_arg13 (c : Dev nD) : W1 m ρ c (Proc.devRef .tc main_arg13) = m ((c : Thread nD τ).loc main_arg13) :=
  (StableHlo.after_of_forall_not_mem (b := (Proc.devRef .tc main_arg13)) _ _ (by untouched)).trans rfl
theorem W1_main_arg14 (c : Dev nD) : W1 m ρ c (Proc.devRef .tc main_arg14) = m ((c : Thread nD τ).loc main_arg14) :=
  (StableHlo.after_of_forall_not_mem (b := (Proc.devRef .tc main_arg14)) _ _ (by untouched)).trans rfl
theorem W1_main_arg15 (c : Dev nD) : W1 m ρ c (Proc.devRef .tc main_arg15) = m ((c : Thread nD τ).loc main_arg15) :=
  (StableHlo.after_of_forall_not_mem (b := (Proc.devRef .tc main_arg15)) _ _ (by untouched)).trans rfl
theorem W1_main_arg16 (c : Dev nD) : W1 m ρ c (Proc.devRef .tc main_arg16) = m ((c : Thread nD τ).loc main_arg16) :=
  (StableHlo.after_of_forall_not_mem (b := (Proc.devRef .tc main_arg16)) _ _ (by untouched)).trans rfl
theorem W1_main_arg17 (c : Dev nD) : W1 m ρ c (Proc.devRef .tc main_arg17) = m ((c : Thread nD τ).loc main_arg17) :=
  (StableHlo.after_of_forall_not_mem (b := (Proc.devRef .tc main_arg17)) _ _ (by untouched)).trans rfl
theorem W1_main_arg18 (c : Dev nD) : W1 m ρ c (Proc.devRef .tc main_arg18) = m ((c : Thread nD τ).loc main_arg18) :=
  (StableHlo.after_of_forall_not_mem (b := (Proc.devRef .tc main_arg18)) _ _ (by untouched)).trans rfl
theorem W1_main_arg19 (c : Dev nD) : W1 m ρ c (Proc.devRef .tc main_arg19) = m ((c : Thread nD τ).loc main_arg19) :=
  (StableHlo.after_of_forall_not_mem (b := (Proc.devRef .tc main_arg19)) _ _ (by untouched)).trans rfl
theorem W1_main_arg20 (c : Dev nD) : W1 m ρ c (Proc.devRef .tc main_arg20) = m ((c : Thread nD τ).loc main_arg20) :=
  (StableHlo.after_of_forall_not_mem (b := (Proc.devRef .tc main_arg20)) _ _ (by untouched)).trans rfl

/-- Moving contents between a literal reference's buffer type and the value's own type is the identity: the two
    types are the same by the program's buffer table. -/
theorem ofBuf_main_arg0 (v : (⟨S50000x128, .f32⟩ : BufTy).Contents (Elt F)) :
    (TRef.of main_arg0 : TRef sig ⟨S50000x128, .f32⟩).ofBuf (Val := Elt F) v = v := rfl
theorem ofBuf_main_arg2 (v : (⟨S800000, .i32⟩ : BufTy).Contents (Elt F)) :
    (TRef.of main_arg2 : TRef sig ⟨S800000, .i32⟩).ofBuf (Val := Elt F) v = v := rfl
theorem toBuf_main_v0 (v : (⟨S800000x128, .f32⟩ : BufTy).Contents (Elt F)) :
    (TRef.of main_v0 : TRef sig ⟨S800000x128, .f32⟩).toBuf (Val := Elt F) v = v := rfl

set_option maxHeartbeats 4000000 in
/-- The gathered-rows buffer at the first region's entry is the rows taken from the launch memory's table. -/
theorem W1_main_v0 (c : Dev nD) :
    W1 m ρ c (Proc.devRef .tc main_v0) = takeRows (m ((c : Thread nD τ).loc main_arg0)) (m ((c : Thread nD τ).loc main_arg2)) := by
  dsimp only [W1]
  after_results_simp
  simp only [StableHlo.TRef.ofBuf_toBuf, ofBuf_main_arg0, ofBuf_main_arg2, toBuf_main_v0]
  rfl

/-! ## Between the regions -/

theorem W2_main_arg0 (c : Dev nD) : W2 m ρ c (Proc.devRef .tc main_arg0) = m ((c : Thread nD τ).loc main_arg0) :=
  (W2_of_ne m ρ c main_arg0 (by decide)).trans (W1_main_arg0 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W2_main_arg9 (c : Dev nD) : W2 m ρ c (Proc.devRef .tc main_arg9) = m ((c : Thread nD τ).loc main_arg9) :=
  (W2_of_ne m ρ c main_arg9 (by decide)).trans (W1_main_arg9 m ρ c)
theorem W2_main_arg10 (c : Dev nD) : W2 m ρ c (Proc.devRef .tc main_arg10) = m ((c : Thread nD τ).loc main_arg10) :=
  (W2_of_ne m ρ c main_arg10 (by decide)).trans (W1_main_arg10 m ρ c)
theorem W2_main_arg11 (c : Dev nD) : W2 m ρ c (Proc.devRef .tc main_arg11) = m ((c : Thread nD τ).loc main_arg11) :=
  (W2_of_ne m ρ c main_arg11 (by decide)).trans (W1_main_arg11 m ρ c)
theorem W2_main_arg12 (c : Dev nD) : W2 m ρ c (Proc.devRef .tc main_arg12) = m ((c : Thread nD τ).loc main_arg12) :=
  (W2_of_ne m ρ c main_arg12 (by decide)).trans (W1_main_arg12 m ρ c)
theorem W2_main_arg13 (c : Dev nD) : W2 m ρ c (Proc.devRef .tc main_arg13) = m ((c : Thread nD τ).loc main_arg13) :=
  (W2_of_ne m ρ c main_arg13 (by decide)).trans (W1_main_arg13 m ρ c)
theorem W2_main_arg14 (c : Dev nD) : W2 m ρ c (Proc.devRef .tc main_arg14) = m ((c : Thread nD τ).loc main_arg14) :=
  (W2_of_ne m ρ c main_arg14 (by decide)).trans (W1_main_arg14 m ρ c)
theorem W2_main_arg15 (c : Dev nD) : W2 m ρ c (Proc.devRef .tc main_arg15) = m ((c : Thread nD τ).loc main_arg15) :=
  (W2_of_ne m ρ c main_arg15 (by decide)).trans (W1_main_arg15 m ρ c)
theorem W2_main_arg16 (c : Dev nD) : W2 m ρ c (Proc.devRef .tc main_arg16) = m ((c : Thread nD τ).loc main_arg16) :=
  (W2_of_ne m ρ c main_arg16 (by decide)).trans (W1_main_arg16 m ρ c)
theorem W2_main_arg17 (c : Dev nD) : W2 m ρ c (Proc.devRef .tc main_arg17) = m ((c : Thread nD τ).loc main_arg17) :=
  (W2_of_ne m ρ c main_arg17 (by decide)).trans (W1_main_arg17 m ρ c)
theorem W2_main_arg18 (c : Dev nD) : W2 m ρ c (Proc.devRef .tc main_arg18) = m ((c : Thread nD τ).loc main_arg18) :=
  (W2_of_ne m ρ c main_arg18 (by decide)).trans (W1_main_arg18 m ρ c)
theorem W2_main_arg19 (c : Dev nD) : W2 m ρ c (Proc.devRef .tc main_arg19) = m ((c : Thread nD τ).loc main_arg19) :=
  (W2_of_ne m ρ c main_arg19 (by decide)).trans (W1_main_arg19 m ρ c)
theorem W2_main_arg20 (c : Dev nD) : W2 m ρ c (Proc.devRef .tc main_arg20) = m ((c : Thread nD τ).loc main_arg20) :=
  (W2_of_ne m ρ c main_arg20 (by decide)).trans (W1_main_arg20 m ρ c)
theorem W3_main_arg0 (c : Dev nD) : W3 m ρ c (Proc.devRef .tc main_arg0) = m ((c : Thread nD τ).loc main_arg0) :=
  (StableHlo.after_of_forall_not_mem (b := (Proc.devRef .tc main_arg0)) _ _ (by untouched)).trans (W2_main_arg0 m ρ c)
theorem W3_main_arg8 (c : Dev nD) : W3 m ρ c (Proc.devRef .tc main_arg8) = m ((c : Thread nD τ).loc main_arg8) :=
  (StableHlo.after_of_forall_not_mem (b := (Proc.devRef .tc main_arg8)) _ _ (by untouched)).trans (W2_main_arg8 m ρ c)
theorem W3_main_arg9 (c : Dev nD) : W3 m ρ c (Proc.devRef .tc main_arg9) = m ((c : Thread nD τ).loc main_arg9) :=
  (StableHlo.after_of_forall_not_mem (b := (Proc.devRef .tc main_arg9)) _ _ (by untouched)).trans (W2_main_arg9 m ρ c)
theorem W3_main_arg10 (c : Dev nD) : W3 m ρ c (Proc.devRef .tc main_arg10) = m ((c : Thread nD τ).loc main_arg10) :=
  (StableHlo.after_of_forall_not_mem (b := (Proc.devRef .tc main_arg10)) _ _ (by untouched)).trans (W2_main_arg10 m ρ c)
theorem W3_main_arg11 (c : Dev nD) : W3 m ρ c (Proc.devRef .tc main_arg11) = m ((c : Thread nD τ).loc main_arg11) :=
  (StableHlo.after_of_forall_not_mem (b := (Proc.devRef .tc main_arg11)) _ _ (by untouched)).trans (W2_main_arg11 m ρ c)
theorem W3_main_arg12 (c : Dev nD) : W3 m ρ c (Proc.devRef .tc main_arg12) = m ((c : Thread nD τ).loc main_arg12) :=
  (StableHlo.after_of_forall_not_mem (b := (Proc.devRef .tc main_arg12)) _ _ (by untouched)).trans (W2_main_arg12 m ρ c)
theorem W3_main_arg13 (c : Dev nD) : W3 m ρ c (Proc.devRef .tc main_arg13) = m ((c : Thread nD τ).loc main_arg13) :=
  (StableHlo.after_of_forall_not_mem (b := (Proc.devRef .tc main_arg13)) _ _ (by untouched)).trans (W2_main_arg13 m ρ c)
theorem W3_main_arg14 (c : Dev nD) : W3 m ρ c (Proc.devRef .tc main_arg14) = m ((c : Thread nD τ).loc main_arg14) :=
  (StableHlo.after_of_forall_not_mem (b := (Proc.devRef .tc main_arg14)) _ _ (by untouched)).trans (W2_main_arg14 m ρ c)
theorem W3_main_arg15 (c : Dev nD) : W3 m ρ c (Proc.devRef .tc main_arg15) = m ((c : Thread nD τ).loc main_arg15) :=
  (StableHlo.after_of_forall_not_mem (b := (Proc.devRef .tc main_arg15)) _ _ (by untouched)).trans (W2_main_arg15 m ρ c)
theorem W3_main_arg16 (c : Dev nD) : W3 m ρ c (Proc.devRef .tc main_arg16) = m ((c : Thread nD τ).loc main_arg16) :=
  (StableHlo.after_of_forall_not_mem (b := (Proc.devRef .tc main_arg16)) _ _ (by untouched)).trans (W2_main_arg16 m ρ c)
theorem W3_main_arg17 (c : Dev nD) : W3 m ρ c (Proc.devRef .tc main_arg17) = m ((c : Thread nD τ).loc main_arg17) :=
  (StableHlo.after_of_forall_not_mem (b := (Proc.devRef .tc main_arg17)) _ _ (by untouched)).trans (W2_main_arg17 m ρ c)
theorem W3_main_arg18 (c : Dev nD) : W3 m ρ c (Proc.devRef .tc main_arg18) = m ((c : Thread nD τ).loc main_arg18) :=
  (StableHlo.after_of_forall_not_mem (b := (Proc.devRef .tc main_arg18)) _ _ (by untouched)).trans (W2_main_arg18 m ρ c)
theorem W3_main_arg19 (c : Dev nD) : W3 m ρ c (Proc.devRef .tc main_arg19) = m ((c : Thread nD τ).loc main_arg19) :=
  (StableHlo.after_of_forall_not_mem (b := (Proc.devRef .tc main_arg19)) _ _ (by untouched)).trans (W2_main_arg19 m ρ c)
theorem W3_main_arg20 (c : Dev nD) : W3 m ρ c (Proc.devRef .tc main_arg20) = m ((c : Thread nD τ).loc main_arg20) :=
  (StableHlo.after_of_forall_not_mem (b := (Proc.devRef .tc main_arg20)) _ _ (by untouched)).trans (W2_main_arg20 m ρ c)

/-- The pooled-messages buffer at the second region's entry is the first region's output summed by receiver. -/
theorem W3_main_v4 (c : Dev nD) :
    W3 m ρ c (Proc.devRef .tc main_v4) = pool (m ((c : Thread nD τ).loc main_arg3)) (W2 m ρ c (Proc.devRef .tc main_v1)) := by
  have e : W3 m ρ c (Proc.devRef .tc main_v4)
      = pool (W2 m ρ c (Proc.devRef .tc main_arg3)) (W2 m ρ c (Proc.devRef .tc main_v1)) := by
    dsimp only [W3]
    after_results
    rfl
  rw [e, W2_main_arg3]

end Cert.KernelIdeal.Result

end
-- ==== Proof.KernelValue.lean ====
/-
  The program's result as one function of its argument arrays.

  G: a node's update of the node table, with the pooled input the edge messages summed by receiver, the edge messages
  computed from the edge features and from the rows `gath` that the senders contribute.  Chaining the second region's
  value at its entry contents, the sum by receiver between the regions, the first region's value at its entry contents and
  the rows taken before it, the program's result buffer ends at G of the launch memory with `gath` the taken rows.
-/
import proofs.«428133_j36799279792140_1_alg».proof.Proof.HostK

set_option maxRecDepth 16384

noncomputable section

namespace Cert.KernelIdeal.Result

open Cert.KernelIdeal Cert.KernelIdeal.Gen Cert.Mlp
open Idealize.ShloMosaic Idealize.ShloMosaic.TcCoe Idealize.ShloMosaic.ValueIdx Idealize.SL.Sem

/-- The result as a function of the argument arrays and of the rows the senders contribute. -/
def G (x0 : FVec Ideal S50000x128 .f32) (x1 : FVec Ideal S800000x16 .f32) (x3 : IVec S800000 32)
    (x4 : FVec Ideal S16x256 .f32) (x5 : FVec Ideal S256 .f32) (x6 : FVec Ideal S256x128 .f32) (x7 : FVec Ideal S128 .f32)
    (x8 : FVec Ideal S1 .f32) (x9 : FVec Ideal S128x256 .f32) (x10 x11 x12 x13 x14 : FVec Ideal S256 .f32)
    (x15 : FVec Ideal S256x128 .f32) (x16 x17 x18 x19 x20 : FVec Ideal S128 .f32)
    (gath : FVec Ideal S800000x128 .f32) : FVec Ideal S50000x128 .f32 :=
  Cert.Gin.node (N := 50000) x0 (pool (F := Ideal) x3 (Cert.Gin.msg (E := 800000) x1 gath x4 (vec x5) x6 (vec x7)))
    (Cert.Gin.one + x8 (ix1 0)) x9 (vec x10) (vec x11) (vec x12) (vec x13) (vec x14)
    x15 (vec x16) (vec x17) (vec x18) (vec x19) (vec x20)

variable (m : (ℓ : Loc nD τ sig) → Buf (Elt Ideal) ℓ) (ρ : Dev nD → PrngReg)

/-- The first region's output array, at the boundary between the regions, is the edge messages of the launch memory. -/
theorem W2_main_v1 (c : Dev nD) :
    W2 m ρ c (Proc.devRef .tc main_v1)
      = Cert.Gin.msg (E := 800000) (m ((c : Thread nD τ).loc main_arg1)) (takeRows (F := Ideal) (m ((c : Thread nD τ).loc main_arg0)) (m ((c : Thread nD τ).loc main_arg2)))
          (m ((c : Thread nD τ).loc main_arg4)) (vec (m ((c : Thread nD τ).loc main_arg5))) (m ((c : Thread nD τ).loc main_arg6)) (vec (m ((c : Thread nD τ).loc main_arg7))) := by
  have e := (W2_arr m ρ c 6).trans (Cert.Gin.arr0 (V1 m ρ) c)
  dsimp only [V1] at e
  rw [W1_main_arg1, W1_main_v0, W1_main_arg4, W1_main_arg5, W1_main_arg6, W1_main_arg7] at e
  exact e

/-- The result buffer at the last boundary is G of the launch memory, the senders' rows the rows taken. -/
theorem result (c : Dev nD) :
    W4 m ρ c (Proc.devRef .tc main_v5)
      = G (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
          (takeRows (F := Ideal) (m ((c : Thread nD τ).loc main_arg0)) (m ((c : Thread nD τ).loc main_arg2))) := by
  have e := (W4_arr m ρ c 15).trans (Cert.Gin.arr1 (V3 m ρ) c)
  dsimp only [V3] at e
  rw [W3_main_arg0, W3_main_v4, W2_main_v1, W3_main_arg8, W3_main_arg9, W3_main_arg10, W3_main_arg11, W3_main_arg12,
    W3_main_arg13, W3_main_arg14, W3_main_arg15, W3_main_arg16, W3_main_arg17, W3_main_arg18, W3_main_arg19,
    W3_main_arg20] at e
  exact e

/-- The run of the program with its result named: every weakly fair execution terminates, nothing faulting, with the
    result buffer at G of the launch memory and every argument array as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5)
        = G (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
            (takeRows (F := Ideal) (m ((c : Thread nD τ).loc main_arg0)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (result m ρ c), (h c).2⟩) (run_main m ρ)

end Cert.KernelIdeal.Result

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.Take.lean ====
/-
  Taking rows at indices that are in range. When every sender index s satisfies -50000 ≤ s < 50000, its wrapped
  value lies in [0, 50000), the range test is passed on every row, and the rows taken are simply the rows gathered
  at the wrapped indices: the fill word is never used.
-/
import proofs.«428133_j36799279792140_1_alg».proof.Proof.HostK
import proofs.«428133_j36799279792140_1_alg».proof.Proof.LibIndexWrap

noncomputable section

namespace Cert.KernelIdeal.Result

open Cert.KernelIdeal Cert.KernelIdeal.Gen
open Idealize.ShloMosaic Idealize.ShloMosaic.ValueIdx

variable {F : FTy → Type} [FloatOps F]

/-- The index column at row p is the wrapped sender index of edge p. -/
theorem idxOf_apply (src : IVec S800000 32) (p : Fin 800000) (u : Fin 1) :
    idxOf src (ix2 p u) = IndexWrap.wrapWord 50000#32 (src (ix1 p)) := by
  unfold idxOf
  refine (broadcastInDim_apply ![0] bcast_S800000_S800000x1_0 _ (ix2 p u) (ix1 p) fun a => ?_).trans rfl
  match a with
  | ⟨0, _⟩ =>
    show p.val = if (800000 : ℕ) = 1 then 0 else p.val
    rw [if_neg (by decide)]

/-- With every sender index in [-50000, 50000) the range test is passed on every row. -/
theorem inRange_ones (src : IVec S800000 32)
    (hs : ∀ i, -((50000 : ℕ) : Int) ≤ (src i).toInt ∧ (src i).toInt < ((50000 : ℕ) : Int)) (j : S800000.Idx) :
    inRange (idxOf src) j = 1#1 := by
  unfold inRange
  refine IndexWrap.reduce_andi_of_all _ _ reducesTo_S800000x1_S800000_d1 h_S_ (fun _ => rfl) (fun i => ?_) j
  obtain ⟨p, u, rfl⟩ : ∃ (p : Fin 800000) (u : Fin 1), i = ix2 p u := ⟨i 0, i 1, eq_ix2 i⟩
  show IntOp.andi (IntOp.cmpi .sge (idxOf src (ix2 p u)) 0#32) (IntOp.cmpi .sle (idxOf src (ix2 p u)) 49999#32) = 1#1
  rw [idxOf_apply]
  exact IndexWrap.rangeTest_wrap 50000 (by decide) (by decide) 49999#32 (by decide) _ (hs _).1 (hs _).2

/-- A per-edge bit spread along the edge's row reads, at (p, q), the bit of edge p. -/
theorem spread_apply (x : IVec S800000 1) (p : Fin 800000) (q : Fin 128) :
    broadcastInDim S800000x128 ![0] bcast_S800000_S800000x128_0 x (ix2 p q) = x (ix1 p) :=
  broadcastInDim_apply (s := S800000) (t := S800000x128) ![0] bcast_S800000_S800000x128_0 x (ix2 p q) (ix1 p) fun a => by
    match a with
    | ⟨0, _⟩ =>
      show p.val = if (800000 : ℕ) = 1 then 0 else p.val
      rw [if_neg (by decide)]

/-- With every sender index in range, the rows taken are the rows gathered at the wrapped indices. -/
theorem takeRows_eq (x : FVec F S50000x128 .f32) (src : IVec S800000 32)
    (hs : ∀ i, -((50000 : ℕ) : Int) ≤ (src i).toInt ∧ (src i).toInt < ((50000 : ℕ) : Int)) :
    takeRows x src = Host.gather gather_S50000x128_S800000x1_S800000x128_1_0_n_n_0_1_1128 x (idxOf src) := by
  unfold takeRows
  refine IndexWrap.select_of_ones _ _ _ fun i => ?_
  obtain ⟨p, q, rfl⟩ : ∃ (p : Fin 800000) (q : Fin 128), i = ix2 p q := ⟨i 0, i 1, eq_ix2 i⟩
  rw [spread_apply (inRange (idxOf src)) p q]
  exact inRange_ones src hs (ix1 p)

end Cert.KernelIdeal.Result

end
-- ==== Proof.Pre.lean ====
/-
  What the precondition says of the sender indices: its last conjunct is "every sender index s satisfies
  -50000 ≤ s < 50000" (signed), the range in which NumPy-style indexing of a 50000-row table is defined.
-/
import proofs.«428133_j36799279792140_1_alg».proof.Pre_finite_inputs
import Idealize.ShloMosaic.Lib.ReduceAll
import Idealize.ShloMosaic.Lib.ValueIdx
import Idealize.ShloMosaic.Lib.Affine

noncomputable section

namespace Cert.Gin

open Idealize.ShloMosaic Cert.Pre_finite_inputs

variable {F : FTy → Type} [FloatOps F] [Cert.Pre_finite_inputs.Facts]

/-- A rank-zero array has one index. -/
instance subsingleton_scalar_idx : Subsingleton S_.Idx := ⟨fun a b => funext fun d => d.elim0⟩

/-- Under the precondition every sender index lies in [-50000, 50000). -/
theorem src_of_pre {a0 : FVec F S50000x128 .f32} {a1 : FVec F S800000x16 .f32} {a2 a3 : IVec S800000 32}
    {a4 : FVec F S16x256 .f32} {a5 : FVec F S256 .f32} {a6 : FVec F S256x128 .f32} {a7 : FVec F S128 .f32}
    {a8 : FVec F S1 .f32} {a9 : FVec F S128x256 .f32} {a10 a11 a12 a13 a14 : FVec F S256 .f32}
    {a15 : FVec F S256x128 .f32} {a16 a17 a18 a19 a20 : FVec F S128 .f32}
    (h : fn (F := F) a0 a1 a2 a3 a4 a5 a6 a7 a8 a9 a10 a11 a12 a13 a14 a15 a16 a17 a18 a19 a20 = fun _ => 1#1)
    (i : S800000.Idx) : -((50000 : ℕ) : Int) ≤ (a2 i).toInt ∧ (a2 i).toInt < ((50000 : ℕ) : Int) := by
  have h0 := congrFun h ValueIdx.ix0
  dsimp only [fn, fn_part1, fn_part2, fn_part3, fn_part4, fn_part5] at h0
  have h1 := (IntOp.andi_eq_one.1 h0).2
  have h2 := Host.reduce_andi_all _ _ _ _ _ h1 i
  obtain ⟨h3, h4⟩ := IntOp.andi_eq_one.1 h2
  have hlo : (4294917296#32 : BitVec 32).toInt ≤ (a2 i).toInt := IntOp.cmpi_sge.1 h3
  have hhi : (a2 i).toInt < (50000#32 : BitVec 32).toInt := IntOp.cmpi_slt.1 h4
  have e1 : (4294917296#32 : BitVec 32).toInt = -50000 := by decide
  have e2 : (50000#32 : BitVec 32).toInt = 50000 := by decide
  rw [e1] at hlo; rw [e2] at hhi
  exact ⟨by push_cast; exact hlo, by push_cast; exact hhi⟩

end Cert.Gin

end
-- ==== Proof.HostSpell.lean ====
/-
  The reference's host operations, read at the extended reals, are the two stages of Spec.lean on whole arrays.
-/
import proofs.«428133_j36799279792140_1_alg».proof.Proof.Spec
import proofs.«428133_j36799279792140_1_alg».proof.Proof.Gen.ReferenceIdeal

noncomputable section

open Idealize.ShloMosaic Idealize.ShloMosaic.ValueIdx

namespace Cert.Gin

open Cert.ReferenceIdeal Cert.ReferenceIdeal.Gen Cert.Mlp

/-! ## The host's spelling, stage by stage -/

/-- A product on the host with its bias broadcast in two steps is the product-and-bias stage. -/
theorem host_dense {N K H : ℕ} (d : DotDims ⟨2, ![N, K]⟩ ⟨2, ![K, H]⟩ ⟨2, ![N, H]⟩) (hd : d = DotDims.plain N K H)
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ .f32) (W : FVec Ideal ⟨2, ![K, H]⟩ .f32) (b : FVec Ideal ⟨1, ![H]⟩ .f32) :
    addf (Host.dotGeneral d none a W)
        (broadcastInDim (⟨2, ![N, H]⟩ : Shape) ![0, 1] h2 (broadcastInDim (⟨2, ![1, H]⟩ : Shape) ![1] h1 b))
      = dense a W (vec b) := by
  subst hd
  funext i
  obtain ⟨p, q, rfl⟩ : ∃ (p : Fin N) (q : Fin H), i = ix2 p q := ⟨i 0, i 1, eq_ix2 i⟩
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [addf_apply, bcast_two h1 h2 b p q, hm]
  rfl

/-- The chain subtract, scale by the reciprocal root, scale, shift, each vector broadcast in two steps, is the
    normalisation. -/
theorem host_norm {N H : ℕ} (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, H]⟩ .f32) (g be m v : FVec Ideal ⟨1, ![H]⟩ .f32) :
    addf (mulf (mulf (subf a
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3A83126F#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = norm a (vec g) (vec be) (vec m) (vec v) := by
  funext i
  obtain ⟨p, q, rfl⟩ : ∃ (p : Fin N) (q : Fin H), i = ix2 p q := ⟨i 0, i 1, eq_ix2 i⟩
  simp only [addf_apply, mulf_apply, subf_apply]
  rw [bcast_two h1 h2 m p q, bcast_two h1 h2 g p q, bcast_two h1 h2 be p q, bcast_two h1 h2 _ p q]
  rfl

/-- A one-element vector broadcast to a one-by-one matrix and then over the whole array, read anywhere, is its entry. -/
theorem host_bcast_one {N H : ℕ} (h1 : (⟨1, ![1]⟩ : Shape).BroadcastsInDim ⟨2, ![1, 1]⟩ ![1])
    (h2 : (⟨2, ![1, 1]⟩ : Shape).BroadcastsInDim ⟨2, ![N, H]⟩ ![0, 1]) (x : (⟨1, ![1]⟩ : Shape).Idx → EReal)
    (p : Fin N) (q : Fin H) :
    broadcastInDim (⟨2, ![N, H]⟩ : Shape) ![0, 1] h2 (broadcastInDim (⟨2, ![1, 1]⟩ : Shape) ![1] h1 x) (ix2 p q)
      = x (ix1 0) := by
  refine (broadcastInDim_apply ![0, 1] h2 _ (ix2 p q) (ix2 0 0) fun a => ?_).trans
    (broadcastInDim_apply ![1] h1 x (ix2 0 0) (ix1 0) fun a => ?_)
  · match a with
    | ⟨0, _⟩ => simp
    | ⟨1, _⟩ => simp
  · match a with
    | ⟨0, _⟩ => simp

/-- The scaled row plus the pooled row, with the scale one plus the one-element vector's entry. -/
theorem host_mix {N H : ℕ} (h0 : (⟨0, ![]⟩ : Shape).BroadcastsInDim ⟨1, ![1]⟩ ![])
    (h1 : (⟨1, ![1]⟩ : Shape).BroadcastsInDim ⟨2, ![1, 1]⟩ ![1])
    (h2 : (⟨2, ![1, 1]⟩ : Shape).BroadcastsInDim ⟨2, ![N, H]⟩ ![0, 1])
    (e : FVec Ideal ⟨1, ![1]⟩ .f32) (x p : FVec Ideal ⟨2, ![N, H]⟩ .f32) (i : (⟨2, ![N, H]⟩ : Shape).Idx) :
    addf (mulf (broadcastInDim (⟨2, ![N, H]⟩ : Shape) ![0, 1] h2 (broadcastInDim (⟨2, ![1, 1]⟩ : Shape) ![1] h1
        (addf (broadcastInDim (⟨1, ![1]⟩ : Shape) ![] h0 (constant (⟨0, ![]⟩ : Shape) .f32 0x3F800000#32)) e))) x) p i
      = (one + e (ix1 0)) * x i + p i := by
  obtain ⟨r, q, rfl⟩ : ∃ (r : Fin N) (q : Fin H), i = ix2 r q := ⟨i 0, i 1, eq_ix2 i⟩
  rw [addf_apply, mulf_apply, host_bcast_one h1 h2 _ r q]
  rfl

/-- The reference's edge chain — two products with their biases, the sender's rows added, the rectifier — is the edge
    message of the whole arrays. -/
theorem ref_msg (ef : FVec Ideal S800000x16 .f32) (We1 : FVec Ideal S16x256 .f32) (be1 : FVec Ideal S256 .f32)
    (We2 : FVec Ideal S256x128 .f32) (be2 : FVec Ideal S128 .f32) (gath : FVec Ideal S800000x128 .f32) :
    maximumf (addf (addf (Host.dotGeneral dot_S800000x256_S256x128_S800000x128_1_0_0_1_n_n none
        (addf (Host.dotGeneral dot_S800000x16_S16x256_S800000x256_1_0_0_1_n_n none ef We1)
          (broadcastInDim S800000x256 ![0, 1] bcast_S1x256_S800000x256_0_1 (broadcastInDim S1x256 ![1] bcast_S256_S1x256_1 be1))) We2)
        (broadcastInDim S800000x128 ![0, 1] bcast_S1x128_S800000x128_0_1 (broadcastInDim S1x128 ![1] bcast_S128_S1x128_1 be2))) gath)
      (broadcastInDim S800000x128 ![] bcast_S_S800000x128 (constant S_ .f32 0x00000000#32))
      = msg (E := 800000) ef gath We1 (vec be1) We2 (vec be2) := by
  rw [host_dense (N := 800000) (K := 16) (H := 256) dot_S800000x16_S16x256_S800000x256_1_0_0_1_n_n rfl
        bcast_S256_S1x256_1 bcast_S1x256_S800000x256_0_1 ef We1 be1,
      host_dense (N := 800000) (K := 256) (H := 128) dot_S800000x256_S256x128_S800000x128_1_0_0_1_n_n rfl
        bcast_S128_S1x128_1 bcast_S1x128_S800000x128_0_1 (dense ef We1 (vec be1)) We2 be2]
  rfl

/-- The reference's node chain is the node update of the whole arrays. -/
theorem ref_node (x p : FVec Ideal S50000x128 .f32) (e : FVec Ideal S1 .f32) (Wm1 : FVec Ideal S128x256 .f32)
    (bm1 g1 b1 m1 v1 : FVec Ideal S256 .f32) (Wm2 : FVec Ideal S256x128 .f32) (bm2 g2 b2 m2 v2 : FVec Ideal S128 .f32) :
    addf (mulf (mulf (subf (addf (Host.dotGeneral dot_S50000x256_S256x128_S50000x128_1_0_0_1_n_n none
      (maximumf (addf (mulf (mulf (subf (addf (Host.dotGeneral dot_S50000x128_S128x256_S50000x256_1_0_0_1_n_n none
        (addf (mulf (broadcastInDim S50000x128 ![0, 1] bcast_S1x1_S50000x128_0_1 (broadcastInDim S1x1 ![1] bcast_S1_S1x1_1
            (addf (broadcastInDim S1 ![] bcast_S_S1 (constant S_ .f32 0x3F800000#32)) e))) x) p) Wm1)
        (broadcastInDim S50000x256 ![0, 1] bcast_S1x256_S50000x256_0_1 (broadcastInDim S1x256 ![1] bcast_S256_S1x256_1 bm1)))
        (broadcastInDim S50000x256 ![0, 1] bcast_S1x256_S50000x256_0_1 (broadcastInDim S1x256 ![1] bcast_S256_S1x256_1 m1)))
        (broadcastInDim S50000x256 ![0, 1] bcast_S1x256_S50000x256_0_1 (broadcastInDim S1x256 ![1] bcast_S256_S1x256_1
          (Host.rsqrt (addf v1 (broadcastInDim S256 ![] bcast_S_S256 (constant S_ .f32 0x3A83126F#32)))))))
        (broadcastInDim S50000x256 ![0, 1] bcast_S1x256_S50000x256_0_1 (broadcastInDim S1x256 ![1] bcast_S256_S1x256_1 g1)))
        (broadcastInDim S50000x256 ![0, 1] bcast_S1x256_S50000x256_0_1 (broadcastInDim S1x256 ![1] bcast_S256_S1x256_1 b1)))
        (broadcastInDim S50000x256 ![] bcast_S_S50000x256 (constant S_ .f32 0x00000000#32))) Wm2)
      (broadcastInDim S50000x128 ![0, 1] bcast_S1x128_S50000x128_0_1 (broadcastInDim S1x128 ![1] bcast_S128_S1x128_1 bm2)))
      (broadcastInDim S50000x128 ![0, 1] bcast_S1x128_S50000x128_0_1 (broadcastInDim S1x128 ![1] bcast_S128_S1x128_1 m2)))
      (broadcastInDim S50000x128 ![0, 1] bcast_S1x128_S50000x128_0_1 (broadcastInDim S1x128 ![1] bcast_S128_S1x128_1
        (Host.rsqrt (addf v2 (broadcastInDim S128 ![] bcast_S_S128 (constant S_ .f32 0x3A83126F#32)))))))
      (broadcastInDim S50000x128 ![0, 1] bcast_S1x128_S50000x128_0_1 (broadcastInDim S1x128 ![1] bcast_S128_S1x128_1 g2)))
      (broadcastInDim S50000x128 ![0, 1] bcast_S1x128_S50000x128_0_1 (broadcastInDim S1x128 ![1] bcast_S128_S1x128_1 b2))
      = node (N := 50000) x p (one + e (ix1 0)) Wm1 (vec bm1) (vec g1) (vec b1) (vec m1) (vec v1)
          Wm2 (vec bm2) (vec g2) (vec b2) (vec m2) (vec v2) := by
  have hmix : addf (mulf (broadcastInDim S50000x128 ![0, 1] bcast_S1x1_S50000x128_0_1 (broadcastInDim S1x1 ![1] bcast_S1_S1x1_1
      (addf (broadcastInDim S1 ![] bcast_S_S1 (constant S_ .f32 0x3F800000#32)) e))) x) p
      = mix (N := 50000) (one + e (ix1 0)) x p :=
    funext fun i => host_mix (N := 50000) (H := 128) bcast_S_S1 bcast_S1_S1x1_1 bcast_S1x1_S50000x128_0_1 e x p i
  rw [hmix,
      host_dense (N := 50000) (K := 128) (H := 256) dot_S50000x128_S128x256_S50000x256_1_0_0_1_n_n rfl
        bcast_S256_S1x256_1 bcast_S1x256_S50000x256_0_1 (mix (N := 50000) (one + e (ix1 0)) x p) Wm1 bm1,
      host_norm (N := 50000) (H := 256) bcast_S_S256 bcast_S256_S1x256_1 bcast_S1x256_S50000x256_0_1 _ g1 b1 m1 v1,
      host_relu bcast_S_S50000x256,
      host_dense (N := 50000) (K := 256) (H := 128) dot_S50000x256_S256x128_S50000x128_1_0_0_1_n_n rfl
        bcast_S128_S1x128_1 bcast_S1x128_S50000x128_0_1 _ Wm2 bm2,
      host_norm (N := 50000) (H := 128) bcast_S_S128 bcast_S128_S1x128_1 bcast_S1x128_S50000x128_0_1 _ g2 b2 m2 v2]
  rfl

end Cert.Gin

end
-- ==== Proof.lean ====
/-
  One round of message passing on a graph, as a tiled kernel program and as plain array code: equal results over the
  extended reals.

  The program: every edge takes its sender's row of the node table; a first tiled region encodes the edge's features by two
  products with their biases, adds the sender's row and rectifies; the messages are summed into their receivers' rows; a second
  tiled region mixes each node's own row, scaled by one plus a learnt offset, with what was pooled into it and passes the
  mix through a product and a bias, an evaluation-mode normalisation, a rectifier, a second product and bias and a second
  normalisation. The reference does the same on whole arrays.

  The two are the same formula, operation by operation; no algebraic law and no finiteness of the inputs is used. What
  the proof supplies: (1) each region's output array is its stage's function of the whole arrays the region finds, because
  every grid point writes back that function's block of rows and the blocks tile the array (Region0, Region1, over the body's
  value in Payload and the row-locality of Spec); (2) the host operations around the regions, read back to the launch memory
  (HostK), so the program's result is one function G of its arguments (KernelValue); (3) the reference's run is the same
  function G (HostSpell). One difference remains, in how a sender index outside the table is treated: the program fills
  such a row with a fixed word while the reference clamps the index. Under the precondition every sender index is in
  [-50000, 50000), where the wrapped index is in range and both read the same row (Pre, Take).
-/
import proofs.«428133_j36799279792140_1_alg».proof.Defs
import proofs.«428133_j36799279792140_1_alg».proof.Proof.Gen.Kernel
import proofs.«428133_j36799279792140_1_alg».proof.Proof.Gen.Kernel.Frame
import proofs.«428133_j36799279792140_1_alg».proof.Proof.Gen.KernelIdeal
import proofs.«428133_j36799279792140_1_alg».proof.Proof.Gen.KernelIdeal.Frame
import proofs.«428133_j36799279792140_1_alg».proof.Proof.Gen.ReferenceIdeal
import proofs.«428133_j36799279792140_1_alg».proof.Proof.Gen.ReferenceIdeal.Run
import proofs.«428133_j36799279792140_1_alg».proof.Proof.Gen.Pre_finite_inputs
import proofs.«428133_j36799279792140_1_alg».proof.Proof.KernelValue
import proofs.«428133_j36799279792140_1_alg».proof.Proof.Take
import proofs.«428133_j36799279792140_1_alg».proof.Proof.Pre
import proofs.«428133_j36799279792140_1_alg».proof.Proof.HostSpell
import Idealize.ShloMosaic.Adequacy
import Idealize.ShloMosaic.Init

set_option maxRecDepth 16384

noncomputable section

namespace Cert.Proof

open Idealize.ShloMosaic Idealize.ShloMosaic.TcCoe Idealize.SL.Sem

/-- The word-level program runs and keeps its arguments: the generated frame. -/
theorem frame_kernel : Cert.frame_Kernel := fun m ρ _ => Cert.Kernel.Gen.frame m ρ

/-- The idealized program runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 1000000 in
/-- From memories agreeing on the arguments both programs end with the same result: the program's is G of its arguments
    with the senders' rows taken from the table, the reference's the same G with the rows gathered at the wrapped
    indices, and under the precondition the rows taken are the rows gathered. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20⟩ := hagree c
  rw [e0, e1, e2, e3, e4, e5, e6, e7, e8, e9, e10, e11, e12, e13, e14, e15, e16, e17, e18, e19, e20]
  rw [Cert.Gin.ref_msg, Cert.Gin.ref_node]
  rw [Cert.KernelIdeal.Result.takeRows_eq _ _ (fun i => Cert.Gin.src_of_pre (hpre c) i)]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
